-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S512x4096 : Shape := ⟨2, ![512, 4096]⟩
abbrev S32x4096 : Shape := ⟨2, ![32, 4096]⟩
abbrev S32x512 : Shape := ⟨2, ![32, 512]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2x4096x4096 .f32) (main_arg1 : FVec F S2x4096x4096 .f32) (main_arg2 : IVec S512x4096 32) (main_arg3 : FVec F S32x4096 .f32) (main_arg4 : IVec S32x512 32) (main_arg5 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2x4096x4096 : Shape := ⟨3, ![2, 4096, 4096]⟩
abbrev S512x4096 : Shape := ⟨2, ![512, 4096]⟩
abbrev S32x4096 : Shape := ⟨2, ![32, 4096]⟩
abbrev S32x512 : Shape := ⟨2, ![32, 512]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S32x1x4096 : Shape := ⟨3, ![32, 1, 4096]⟩
abbrev S32x128x4096 : Shape := ⟨3, ![32, 128, 4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 48
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S512x4096, .i32⟩
  | .hbm, ⟨3, _⟩ => ⟨S32x4096, .f32⟩
  | .hbm, ⟨4, _⟩ => ⟨S32x512, .i32⟩
  | .hbm, ⟨5, _⟩ => ⟨S4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S512x1x4096, .i32⟩
  | .hbm, ⟨11, _⟩ => ⟨S1x8x1, .i32⟩
  | .hbm, ⟨12, _⟩ => ⟨S512x8x4096, .i32⟩
  | .hbm, ⟨13, _⟩ => ⟨S512x8x4096, .i32⟩
  | .hbm, ⟨14, _⟩ => ⟨S512x8x4096, .i32⟩
  | .hbm, ⟨15, _⟩ => ⟨S_, .i32⟩
  | .hbm, ⟨16, _⟩ => ⟨S512x8x4096, .i32⟩
  | .hbm, ⟨17, _⟩ => ⟨S512x8x4096, .i32⟩
  | .hbm, ⟨18, _⟩ => ⟨S4096x4096, .i32⟩
  | .hbm, ⟨19, _⟩ => ⟨S4096x4096, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S32x512x1, .i32⟩
  | .hbm, ⟨25, _⟩ => ⟨S1x1x8, .i32⟩
  | .hbm, ⟨26, _⟩ => ⟨S32x512x8, .i32⟩
  | .hbm, ⟨27, _⟩ => ⟨S32x512x8, .i32⟩
  | .hbm, ⟨28, _⟩ => ⟨S32x512x8, .i32⟩
  | .hbm, ⟨29, _⟩ => ⟨S_, .i32⟩
  | .hbm, ⟨30, _⟩ => ⟨S32x512x8, .i32⟩
  | .hbm, ⟨31, _⟩ => ⟨S32x512x8, .i32⟩
  | .hbm, ⟨32, _⟩ => ⟨S32x4096, .i32⟩
  | .hbm, ⟨33, _⟩ => ⟨S32x4096, .f32⟩
  | .hbm, ⟨34, _⟩ => ⟨S32x1x4096, .f32⟩
  | .hbm, ⟨35, _⟩ => ⟨S32x128x4096, .f32⟩
  | .hbm, ⟨36, _⟩ => ⟨S4096x4096, .f32⟩
  | .hbm, ⟨37, _⟩ => ⟨S32x1x4096, .f32⟩
  | .hbm, ⟨38, _⟩ => ⟨S32x128x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .bf16⟩
  | .hbm, ⟨43, _⟩ => ⟨S8192x4096, .f32⟩
  | .hbm, ⟨44, _⟩ => ⟨S8192x4096, .f32⟩
  | .hbm, ⟨45, _⟩ => ⟨S1x4096, .f32⟩
  | .hbm, ⟨46, _⟩ => ⟨S8192x4096, .f32⟩
  | .hbm, ⟨47, _⟩ => ⟨S2x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .ne arg2 c0_i32_4
  let v10 : BitVec 32 := Scalar.extui v9
  let c0_i32_5 : BitVec 32 := 0#32
  let v11 : BitVec 1 := Scalar.cmpi .ne v10 c0_i32_5
  v11

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S32x4096_S32x1x4096_0_2 : S32x4096.BroadcastsInDim S32x1x4096 (![0, 2] : Fin 2 → Fin S32x1x4096.rank)
  bcast_S32x1x4096_S32x128x4096_0_1_2 : S32x1x4096.BroadcastsInDim S32x128x4096 (![0, 1, 2] : Fin 3 → Fin S32x128x4096.rank)
  shapeCasts_S32x128x4096_S4096x4096 : S32x128x4096.ShapeCasts S4096x4096
  bitsLt_bf16_f32 : FTy.bits .bf16 < FTy.bits .f32
  shapeCasts_S2x4096x4096_S8192x4096 : S2x4096x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S2x4096x4096 : S8192x4096.ShapeCasts S2x4096x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v33) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) && !(k0_cond3 i == 1#1) | ⟨_ + 5, h⟩ => absurd h (Nat.not_lt.2 (Nat.le_add_left _ _))

class Facts : Prop extends Facts₀ where
  halias0_4 : Pipeline.Aliased win0 3 4

variable [Facts]
-- ==== ReferenceIdeal.lean ====
abbrev S2x4096x4096 : Shape := ⟨3, ![2, 4096, 4096]⟩
abbrev S512x4096 : Shape := ⟨2, ![512, 4096]⟩
abbrev S32x4096 : Shape := ⟨2, ![32, 4096]⟩
abbrev S32x512 : Shape := ⟨2, ![32, 512]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S32x128x4096 : Shape := ⟨3, ![32, 128, 4096]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S512x4096, .i32⟩
  | .hbm, ⟨3, _⟩ => ⟨S32x4096, .f32⟩
  | .hbm, ⟨4, _⟩ => ⟨S32x512, .i32⟩
  | .hbm, ⟨5, _⟩ => ⟨S4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S512x1x4096, .i32⟩
  | .hbm, ⟨11, _⟩ => ⟨S1x8x1, .i32⟩
  | .hbm, ⟨12, _⟩ => ⟨S512x8x4096, .i32⟩
  | .hbm, ⟨13, _⟩ => ⟨S512x8x4096, .i32⟩
  | .hbm, ⟨14, _⟩ => ⟨S512x8x4096, .i32⟩
  | .hbm, ⟨15, _⟩ => ⟨S_, .i32⟩
  | .hbm, ⟨16, _⟩ => ⟨S512x8x4096, .i32⟩
  | .hbm, ⟨17, _⟩ => ⟨S512x8x4096, .i32⟩
  | .hbm, ⟨18, _⟩ => ⟨S4096x4096, .i32⟩
  | .hbm, ⟨19, _⟩ => ⟨S4096x4096, .f32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S32x512x1, .i32⟩
  | .hbm, ⟨25, _⟩ => ⟨S1x1x8, .i32⟩
  | .hbm, ⟨26, _⟩ => ⟨S32x512x8, .i32⟩
  | .hbm, ⟨27, _⟩ => ⟨S32x512x8, .i32⟩
  | .hbm, ⟨28, _⟩ => ⟨S32x512x8, .i32⟩
  | .hbm, ⟨29, _⟩ => ⟨S_, .i32⟩
  | .hbm, ⟨30, _⟩ => ⟨S32x512x8, .i32⟩
  | .hbm, ⟨31, _⟩ => ⟨S32x512x8, .i32⟩
  | .hbm, ⟨32, _⟩ => ⟨S32x4096, .i32⟩
  | .hbm, ⟨33, _⟩ => ⟨S32x4096, .f32⟩
  | .hbm, ⟨34, _⟩ => ⟨S32x128x4096, .f32⟩
  | .hbm, ⟨35, _⟩ => ⟨S4096x4096, .f32⟩
  | .hbm, ⟨36, _⟩ => ⟨S32x128x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S2x4096x4096, .f32⟩
  | .hbm, ⟨41, _⟩ => ⟨S1x1x4096, .f32⟩
  | .hbm, ⟨42, _⟩ => ⟨S2x4096x4096, .f32⟩
  | .hbm, ⟨43, _⟩ => ⟨S2x4096x4096, .f32⟩
  | .hbm, ⟨44, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  dot_S2x4096x4096_S4096x4096_S2x4096x4096_2_0_01_1_n_n_wf : DotDims.WF S2x4096x4096 S4096x4096 S2x4096x4096 [2] [0] [0, 1] [1] [] []

variable [Facts₀]

def dot_S2x4096x4096_S4096x4096_S2x4096x4096_2_0_01_1_n_n : DotDims S2x4096x4096 S4096x4096 S2x4096x4096 where
  lhsContracting := [2]
  rhsContracting := [0]
  lhsNonContracting := [0, 1]
  rhsNonContracting := [1]
  lhsBatch := []
  rhsBatch := []
  wf := dot_S2x4096x4096_S4096x4096_S2x4096x4096_2_0_01_1_n_n_wf

class Facts : Prop extends Facts₀ where

variable [Facts]
-- ==== Proof.KernelBody.lean ====
/-
  The kernel body at one grid point, in each of the three situations the last grid coordinate k puts it in.

  The body multiplies the point's 1024 x 1024 block of activations by its 1024 x 1024 block of weights and then
    * at k = 0 stores the product into the output block (the running total starts),
    * at k ≠ 0 adds the product to what the output block holds (the running total grows),
    * at k = 3 moreover adds the bias row, broadcast over the rows, and the residual block (the total is finished).
  The three tests depend on k alone, so over the 128 grid points, numbered with k fastest, they are "the point's
  number is 0 mod 4", "is not 0 mod 4" and "is 3 mod 4"; one of the first two always holds, so the output block is
  stored into at every point.  Each case below says: handed the five blocks at known contents, the body ends with the
  four input blocks as they were and the output block holding the stated function of them; every store replaces the
  whole block, so what the block held before matters only through the value that was loaded from it.
-/
import proofs.«431422_j47407849013389_3_alg».proof.Proof.Gen.Kernel.Frame
import proofs.«431422_j47407849013389_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tests over the grid -/

/-- The running total starts exactly at the points whose number is 0 mod 4 (k = 0). -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- It grows exactly at the other points (k ≠ 0). -/
theorem later_iff : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
/-- It is finished exactly at the points whose number is 3 mod 4 (k = 3). -/
theorem last_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- The output block is stored into at every point: k = 0 or k ≠ 0. -/
theorem out_live : ∀ i : grid0.Coords, cfg0.idle 4 i = false := by decide +kernel

/-- The offsets of every load and store of the body are zero: each moves a whole block. -/
theorem offs_zero : (![0, 0] : Fin S1024x1024.rank → ℕ) = fun _ => 0 := by
  funext x; fin_cases x <;> rfl
theorem offs_zero_row : (![0, 0] : Fin S1x1024.rank → ℕ) = fun _ => 0 := by
  funext x; fin_cases x <;> rfl

/-! ## A store of the whole block -/

/-- Whatever a buffer held and whatever was stored before, after a store that replaces the whole block the buffer
    reads as the stored value.  This holds for a block of any shape. -/
theorem read_after_whole_store {Val : EltTy → Type} [∀ e, Nonempty (Val e)] {sg : RefSig} {κ : Kind} {sp : Space}
    {S : Shape} {e : EltTy} (v : View sg κ sp S e) (f : v.ty.Contents Val) {off : Fin S.rank → ℕ}
    (hz : off = fun _ => 0) (inb : ∀ x, off x + S.size x ≤ S.size x) (x : S.Idx → Val e)
    (L : List (View.Piece Val S e)) :
    v.read Val (v.writes Val f ((⟨Rect.unit off S.size inb, x⟩ : View.Piece Val S e) :: L)) = x :=
  (View.read_writes_eq_canon v f _ (fun y => ⟨_, List.mem_cons_self .., View.mem_set_unit_zero hz inb y⟩)).trans
    (View.canon_cons_unit_zero hz inb x L)

/-! ## The body, case by case -/

/-- k = 0: the output block ends at the product of the two input blocks. -/
theorem body_first (c : Dev nD) (i : grid0.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (h1 : k0_cond1 i = 1#1) (h2 : ¬ k0_cond2 i = 1#1) (h3 : ¬ k0_cond3 i = 1#1)
    (a : Vec F S1024x1024 .f32) (w : Vec F S1024x1024 .bf16) (b : Vec F S1x1024 .f32)
    (r : Vec F S1024x1024 .f32) (o : Vec F S1024x1024 .f32)
    (E : Set ℕ) (K : PUnit → sProp 𝕄) :
    iprop(owns (c : Thread nD τ) arg3 fullShare a ∗ owns (c : Thread nD τ) arg4 fullShare w
        ∗ owns (c : Thread nD τ) arg5 fullShare b ∗ owns (c : Thread nD τ) arg6 fullShare r
        ∗ owns (c : Thread nD τ) arg7 fullShare o
        ∗ (iprop(owns (c : Thread nD τ) arg3 fullShare a ∗ owns (c : Thread nD τ) arg4 fullShare w
            ∗ owns (c : Thread nD τ) arg5 fullShare b ∗ owns (c : Thread nD τ) arg6 fullShare r
            ∗ owns (c : Thread nD τ) arg7 fullShare (k0_pay1 a w)) -∗ K ⟨⟩))
      ⊢ wp frame (wpE (defs₀ (F := F)) Variants.none c none) E
          (cc0__matmul_bias_residual_kernel i arg3 harg3 arg4 harg4 arg5 harg5 arg6 harg6 arg7 harg7) K := by
  simp only [cc0__matmul_bias_residual_kernel_eq_skeleton]; unfold cc0__matmul_bias_residual_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  refine (read_after_whole_store _ _ offs_zero _ _ _).trans ?_
  simp only [View.readAt_eq_ld, harg3.read_unread, harg4.read_unread, View.ld_unit_zero (S := S1024x1024) offs_zero]

/-- k = 1 or 2: the output block ends at what it held plus the product. -/
theorem body_middle (c : Dev nD) (i : grid0.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (h1 : ¬ k0_cond1 i = 1#1) (h2 : k0_cond2 i = 1#1) (h3 : ¬ k0_cond3 i = 1#1)
    (a : Vec F S1024x1024 .f32) (w : Vec F S1024x1024 .bf16) (b : Vec F S1x1024 .f32)
    (r : Vec F S1024x1024 .f32) (o : Vec F S1024x1024 .f32)
    (E : Set ℕ) (K : PUnit → sProp 𝕄) :
    iprop(owns (c : Thread nD τ) arg3 fullShare a ∗ owns (c : Thread nD τ) arg4 fullShare w
        ∗ owns (c : Thread nD τ) arg5 fullShare b ∗ owns (c : Thread nD τ) arg6 fullShare r
        ∗ owns (c : Thread nD τ) arg7 fullShare o
        ∗ (iprop(owns (c : Thread nD τ) arg3 fullShare a ∗ owns (c : Thread nD τ) arg4 fullShare w
            ∗ owns (c : Thread nD τ) arg5 fullShare b ∗ owns (c : Thread nD τ) arg6 fullShare r
            ∗ owns (c : Thread nD τ) arg7 fullShare (k0_pay2 a w o)) -∗ K ⟨⟩))
      ⊢ wp frame (wpE (defs₀ (F := F)) Variants.none c none) E
          (cc0__matmul_bias_residual_kernel i arg3 harg3 arg4 harg4 arg5 harg5 arg6 harg6 arg7 harg7) K := by
  simp only [cc0__matmul_bias_residual_kernel_eq_skeleton]; unfold cc0__matmul_bias_residual_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  refine (read_after_whole_store _ _ offs_zero _ _ _).trans ?_
  simp only [View.readAt_eq_ld, harg3.read_unread, harg4.read_unread, harg7.read_unread,
    View.ld_unit_zero (S := S1024x1024) offs_zero]

/-- k = 3: the output block ends at what it held plus the product, plus the bias row on every row, plus the residual block. -/
theorem body_last (c : Dev nD) (i : grid0.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (h1 : ¬ k0_cond1 i = 1#1) (h2 : k0_cond2 i = 1#1) (h3 : k0_cond3 i = 1#1)
    (a : Vec F S1024x1024 .f32) (w : Vec F S1024x1024 .bf16) (b : Vec F S1x1024 .f32)
    (r : Vec F S1024x1024 .f32) (o : Vec F S1024x1024 .f32)
    (E : Set ℕ) (K : PUnit → sProp 𝕄) :
    iprop(owns (c : Thread nD τ) arg3 fullShare a ∗ owns (c : Thread nD τ) arg4 fullShare w
        ∗ owns (c : Thread nD τ) arg5 fullShare b ∗ owns (c : Thread nD τ) arg6 fullShare r
        ∗ owns (c : Thread nD τ) arg7 fullShare o
        ∗ (iprop(owns (c : Thread nD τ) arg3 fullShare a ∗ owns (c : Thread nD τ) arg4 fullShare w
            ∗ owns (c : Thread nD τ) arg5 fullShare b ∗ owns (c : Thread nD τ) arg6 fullShare r
            ∗ owns (c : Thread nD τ) arg7 fullShare (k0_pay3 (k0_pay2 a w o) b r)) -∗ K ⟨⟩))
      ⊢ wp frame (wpE (defs₀ (F := F)) Variants.none c none) E
          (cc0__matmul_bias_residual_kernel i arg3 harg3 arg4 harg4 arg5 harg5 arg6 harg6 arg7 harg7) K := by
  simp only [cc0__matmul_bias_residual_kernel_eq_skeleton]; unfold cc0__matmul_bias_residual_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  refine (read_after_whole_store _ _ offs_zero _ _ _).trans ?_
  sl_unfold_words
  simp only [View.readCov_unit_zero (S := S1024x1024) _ offs_zero, View.readAt_eq_ld, harg3.read_unread,
    harg4.read_unread, harg5.read_unread, harg6.read_unread, harg7.read_unread,
    View.ld_unit_zero (S := S1024x1024) offs_zero, View.ld_unit_zero (S := S1x1024) offs_zero_row]

end Cert.Kernel.Body

end
-- ==== Proof.KernelFrame.lean ====
/-
  The frame of the program with the blocked matrix product: proof data, body obligation, run.

  The grid has 8 x 4 x 4 = 128 points, numbered with the last coordinate k fastest, so a point's number mod 4 is
  its k.  Four input windows hand the body, at every point, the point's block of the activations, of the weights,
  of the bias row and of the residual; none is ever changed.  The output window's block is the running total of
  the four products of one (row block, column block) pair: it is started at k = 0, grows at k = 1, 2, is finished
  (bias and residual added) at k = 3, and is written back to the result array after k = 3 only — so between two
  points of one pair the block the body finds is the block the body left, and at k = 0 whatever it finds is
  replaced whole.  `total` says what the block holds after each point, by recursion on the point's number; the
  body's three cases then give the obligation at every point, and the launch rule for a region followed by host
  operations gives the run, from which the frame claim is read off.
-/
import proofs.«431422_j47407849013389_3_alg».proof.Proof.KernelBody
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body is handed, by their literal types -/

/-- The point's block of the activations (rows of one row block, positions of one stretch). -/
abbrev actBlk (c : Dev nD) (t : Fin cfg0.N) : Vec F S1024x1024 .f32 := iblk m c 0 t
/-- The point's block of the weights (positions of one stretch, columns of one column block). -/
abbrev wgtBlk (c : Dev nD) (t : Fin cfg0.N) : Vec F S1024x1024 .bf16 := iblk m c 1 t
/-- The point's stretch of the bias row. -/
abbrev biasBlk (c : Dev nD) (t : Fin cfg0.N) : Vec F S1x1024 .f32 := iblk m c 2 t
/-- The point's block of the residual. -/
abbrev resBlk (c : Dev nD) (t : Fin cfg0.N) : Vec F S1024x1024 .f32 := iblk m c 3 t

/-! ## The running total -/

/-- What the output block holds after the body at the point numbered `n`: at k = 0 the point's product; at
    k = 1, 2 the product added to what the point before left; at k = 3 that, plus the bias row, plus the residual. -/
def total (c : Dev nD) : (n : ℕ) → n < cfg0.N → Vec F S1024x1024 .f32
  | 0, hn => k0_pay1 (actBlk m c ⟨0, hn⟩) (wgtBlk m c ⟨0, hn⟩)
  | n + 1, hn =>
    if (n + 1) % 4 = 0 then k0_pay1 (actBlk m c ⟨n + 1, hn⟩) (wgtBlk m c ⟨n + 1, hn⟩)
    else if (n + 1) % 4 = 3 then
      k0_pay3 (k0_pay2 (actBlk m c ⟨n + 1, hn⟩) (wgtBlk m c ⟨n + 1, hn⟩) (total c n (Nat.lt_of_succ_lt hn)))
        (biasBlk m c ⟨n + 1, hn⟩) (resBlk m c ⟨n + 1, hn⟩)
    else k0_pay2 (actBlk m c ⟨n + 1, hn⟩) (wgtBlk m c ⟨n + 1, hn⟩) (total c n (Nat.lt_of_succ_lt hn))

/-- At k = 0 the total is the point's product alone. -/
theorem total_first (c : Dev nD) (t : Fin cfg0.N) (h0 : t.val % 4 = 0) :
    total m c t.val t.isLt = k0_pay1 (actBlk m c t) (wgtBlk m c t) := by
  obtain ⟨n, hn⟩ := t
  cases n with
  | zero => rfl
  | succ n => exact (if_pos h0).trans rfl

/-- At k = 1, 2 it is the product added to the total of the point before. -/
theorem total_middle (c : Dev nD) (t : Fin cfg0.N) (h0 : ¬t.val % 4 = 0) (h3 : ¬t.val % 4 = 3) :
    total m c t.val t.isLt
      = k0_pay2 (actBlk m c t) (wgtBlk m c t) (total m c (t.val - 1) (Nat.lt_of_le_of_lt (Nat.sub_le _ _) t.isLt)) := by
  obtain ⟨n, hn⟩ := t
  cases n with
  | zero => exact absurd (Nat.zero_mod _) h0
  | succ n => exact (if_neg h0).trans ((if_neg h3).trans rfl)

/-- At k = 3 the bias row and the residual are added on top of that. -/
theorem total_last (c : Dev nD) (t : Fin cfg0.N) (h3 : t.val % 4 = 3) :
    total m c t.val t.isLt
      = k0_pay3 (k0_pay2 (actBlk m c t) (wgtBlk m c t) (total m c (t.val - 1) (Nat.lt_of_le_of_lt (Nat.sub_le _ _) t.isLt)))
          (biasBlk m c t) (resBlk m c t) := by
  obtain ⟨n, hn⟩ := t
  cases n with
  | zero => exact absurd h3 (by show ¬(0 % 4 = 3); decide)
  | succ n => exact (if_neg (by dsimp only at h3 ⊢; omega)).trans ((if_pos h3).trans rfl)

/-! ## The proof data -/

/-- On core `c`: the arrays as the region finds them; after the body each input block unchanged and the output
    block at the running total; the region's own invariant (the scoped rest and the generator register); nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => total m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_act (c : Dev nD) (t : Fin cfg0.N) : (dats m 0 c).after 0 t = iblk m c 0 t := by dsimp only [dats]
theorem after_wgt (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_res (c : Dev nD) (t : Fin cfg0.N) : (dats m 0 c).after 3 t = iblk m c 3 t := by dsimp only [dats]
theorem after_out (c : Dev nD) (t : Fin cfg0.N) : (dats m 0 c).after 4 t = total m c t.val t.isLt := by dsimp only [dats]

/-- Each input window's buffer holds the point's block, whether the point fetched it or an earlier one did. -/
theorem before_act (c : Dev nD) (t : Fin cfg0.N) (d) : (dats m 0 c).before 0 t d = iblk m c 0 t :=
  before0_0_of m (dats m 0 c) (A_eq m c 0) (after_act m c) t d
theorem before_wgt (c : Dev nD) (t : Fin cfg0.N) (d) : (dats m 0 c).before 1 t d = iblk m c 1 t :=
  before0_1_of m (dats m 0 c) (A_eq m c 1) (after_wgt m c) t d
theorem before_bias (c : Dev nD) (t : Fin cfg0.N) (d) : (dats m 0 c).before 2 t d = iblk m c 2 t :=
  before0_2_of m (dats m 0 c) (A_eq m c 2) (after_bias m c) t d
theorem before_res (c : Dev nD) (t : Fin cfg0.N) (d) : (dats m 0 c).before 3 t d = iblk m c 3 t :=
  before0_3_of m (dats m 0 c) (A_eq m c 3) (after_res m c) t d

/-- At k = 0 the output window's buffer is fresh (the first point, or the point before wrote the block back):
    it holds anything. -/
theorem before_out_first (c : Dev nD) (t : Fin cfg0.N) (h0 : t.val % 4 = 0) (d) : (dats m 0 c).before 4 t d = d :=
  Dat.before_out_reset _ 4 rfl t (by
    by_cases ht : t.val = 0
    · exact .inl ht
    · exact .inr ⟨ht, (flush0_4 _).mpr (by dsimp only; omega)⟩) d

/-- At k ≠ 0 it holds the running total the point before left: the point is not the first, the block was not
    written back in between, the window is stored into at every point and its blocks are whole. -/
theorem before_out_later (c : Dev nD) (t : Fin cfg0.N) (h0 : ¬t.val % 4 = 0) (d) :
    (dats m 0 c).before 4 t d = total m c (t.val - 1) (Nat.lt_of_le_of_lt (Nat.sub_le _ _) t.isLt) := by
  rw [Dat.before_out_kept _ 4 rfl t (by omega)
    (Bool.eq_false_iff.mpr fun h => by have := (flush0_4 _).mp h; dsimp only at this; omega) out_live (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
/-- The body at any point: the inputs' buffers hold their blocks; the point's number mod 4 says which of the three
    cases applies and what the output's buffer holds; that case's run applies; the invariant passes through
    unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_act, before_wgt, before_bias, before_res]
  rw [show (dats m 0 c).Φ t.succ = (dats m 0 c).Φ t.castSucc from rfl,
    show (dats m 0 c).owesAt () t.succ = (dats m 0 c).owesAt () t.castSucc from rfl,
    after_act, after_wgt, after_bias, after_res, after_out]
  by_cases h0 : t.val % 4 = 0
  · rw [total_first m c t h0]
    simp only [before_out_first m c t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((first_iff t).mpr h0)
      (fun h => (later_iff t).mp h h0) (fun h => by have := (last_iff t).mp h; omega)
      (actBlk m c t) (wgtBlk m c t) (biasBlk m c t) (resBlk m c t) d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_out_later m c t h0]
    by_cases h3 : t.val % 4 = 3
    · rw [total_last m c t h3]
      iintro ⟨HΦ, Ho, ⟨%d0, H0⟩, ⟨%d1, H1⟩, ⟨%d2, H2⟩, ⟨%d3, H3⟩, ⟨%d4, H4⟩⟩
      iapply (body_last c (grid0.coords t) _ _ _ _ _ _ _ _ _ _ (fun h => h0 ((first_iff t).mp h))
        ((later_iff t).mpr h0) ((last_iff t).mpr h3)
        (actBlk m c t) (wgtBlk m c t) (biasBlk m c t) (resBlk m c t)
        (total m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [total_middle m c t h0 h3]
      iintro ⟨HΦ, Ho, ⟨%d0, H0⟩, ⟨%d1, H1⟩, ⟨%d2, H2⟩, ⟨%d3, H3⟩, ⟨%d4, H4⟩⟩
      iapply (body_middle c (grid0.coords t) _ _ _ _ _ _ _ _ _ _ (fun h => h0 ((first_iff t).mp h))
        ((later_iff t).mpr h0) (fun h => h3 ((last_iff t).mp h))
        (actBlk m c t) (wgtBlk m c t) (biasBlk m c t) (resBlk m c t)
        (total m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The body obligation, at every point: the output window is stored into at every point, so the
    obligation's clause for an idle window never applies. -/
theorem body_obligation (c : Dev nD) : BodyObligation (dats (F := F) m 0 c) (defs₀ (F := F)) Variants.none () Set.univ := fun t => by
  rw [bigSep_W0, bigSep_W0]
  have hl : idle0 4 (grid0.coords t) = false := out_live _
  simp only [hl]
  exact sound_body m c t

/-! ## The run and the frame -/

set_option backward.isDefEq.respectTransparency.types false in
/-- From any memory with zero counters every weakly fair execution of the program terminates, each array of the
    pipeline ends at what the proof data say and every other unscoped buffer as the host operations after the
    region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance: the program runs to the end, faults nowhere, and its six argument arrays end
    as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KernelIdealBody.lean ====
/-
  The kernel body at one grid point, in each of the three situations the last grid coordinate k puts it in.

  The body multiplies the point's 1024 x 1024 block of activations by its 1024 x 1024 block of weights and then
    * at k = 0 stores the product into the output block (the running total starts),
    * at k ≠ 0 adds the product to what the output block holds (the running total grows),
    * at k = 3 moreover adds the bias row, broadcast over the rows, and the residual block (the total is finished).
  The three tests depend on k alone, so over the 128 grid points, numbered with k fastest, they are "the point's
  number is 0 mod 4", "is not 0 mod 4" and "is 3 mod 4"; one of the first two always holds, so the output block is
  stored into at every point.  Each case below says: handed the five blocks at known contents, the body ends with the
  four input blocks as they were and the output block holding the stated function of them; every store replaces the
  whole block, so what the block held before matters only through the value that was loaded from it.
-/
import proofs.«431422_j47407849013389_3_alg».proof.Proof.Gen.KernelIdeal.Frame
import proofs.«431422_j47407849013389_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three tests over the grid -/

/-- The running total starts exactly at the points whose number is 0 mod 4 (k = 0). -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- It grows exactly at the other points (k ≠ 0). -/
theorem later_iff : ∀ t : Fin cfg0.N, k0_cond2 (grid0.coords t) = 1#1 ↔ t.val % 4 ≠ 0 :=
  (by decide +kernel : ∀ t : Fin grid0.N, k0_cond2 (grid0.coords t) = 1#1 ↔ t.val % 4 ≠ 0)
/-- It is finished exactly at the points whose number is 3 mod 4 (k = 3). -/
theorem last_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- The output block is stored into at every point: k = 0 or k ≠ 0. -/
theorem out_live : ∀ i : grid0.Coords, cfg0.idle 4 i = false := by decide +kernel

/-- The offsets of every load and store of the body are zero: each moves a whole block. -/
theorem offs_zero : (![0, 0] : Fin S1024x1024.rank → ℕ) = fun _ => 0 := by
  funext x; fin_cases x <;> rfl
theorem offs_zero_row : (![0, 0] : Fin S1x1024.rank → ℕ) = fun _ => 0 := by
  funext x; fin_cases x <;> rfl

/-! ## A store of the whole block -/

/-- Whatever a buffer held and whatever was stored before, after a store that replaces the whole block the buffer
    reads as the stored value.  This holds for a block of any shape. -/
theorem read_after_whole_store {Val : EltTy → Type} [∀ e, Nonempty (Val e)] {sg : RefSig} {κ : Kind} {sp : Space}
    {S : Shape} {e : EltTy} (v : View sg κ sp S e) (f : v.ty.Contents Val) {off : Fin S.rank → ℕ}
    (hz : off = fun _ => 0) (inb : ∀ x, off x + S.size x ≤ S.size x) (x : S.Idx → Val e)
    (L : List (View.Piece Val S e)) :
    v.read Val (v.writes Val f ((⟨Rect.unit off S.size inb, x⟩ : View.Piece Val S e) :: L)) = x :=
  (View.read_writes_eq_canon v f _ (fun y => ⟨_, List.mem_cons_self .., View.mem_set_unit_zero hz inb y⟩)).trans
    (View.canon_cons_unit_zero hz inb x L)

/-! ## The body, case by case -/

/-- k = 0: the output block ends at the product of the two input blocks. -/
theorem body_first (c : Dev nD) (i : grid0.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (h1 : k0_cond1 i = 1#1) (h2 : ¬ k0_cond2 i = 1#1) (h3 : ¬ k0_cond3 i = 1#1)
    (a : Vec F S1024x1024 .f32) (w : Vec F S1024x1024 .bf16) (b : Vec F S1x1024 .f32)
    (r : Vec F S1024x1024 .f32) (o : Vec F S1024x1024 .f32)
    (E : Set ℕ) (K : PUnit → sProp 𝕄) :
    iprop(owns (c : Thread nD τ) arg3 fullShare a ∗ owns (c : Thread nD τ) arg4 fullShare w
        ∗ owns (c : Thread nD τ) arg5 fullShare b ∗ owns (c : Thread nD τ) arg6 fullShare r
        ∗ owns (c : Thread nD τ) arg7 fullShare o
        ∗ (iprop(owns (c : Thread nD τ) arg3 fullShare a ∗ owns (c : Thread nD τ) arg4 fullShare w
            ∗ owns (c : Thread nD τ) arg5 fullShare b ∗ owns (c : Thread nD τ) arg6 fullShare r
            ∗ owns (c : Thread nD τ) arg7 fullShare (k0_pay1 a w)) -∗ K ⟨⟩))
      ⊢ wp frame (wpE (defs₀ (F := F)) Variants.none c none) E
          (cc0__matmul_bias_residual_kernel i arg3 harg3 arg4 harg4 arg5 harg5 arg6 harg6 arg7 harg7) K := by
  simp only [cc0__matmul_bias_residual_kernel_eq_skeleton]; unfold cc0__matmul_bias_residual_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  refine (read_after_whole_store _ _ offs_zero _ _ _).trans ?_
  simp only [View.readAt_eq_ld, harg3.read_unread, harg4.read_unread, View.ld_unit_zero (S := S1024x1024) offs_zero]

/-- k = 1 or 2: the output block ends at what it held plus the product. -/
theorem body_middle (c : Dev nD) (i : grid0.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (h1 : ¬ k0_cond1 i = 1#1) (h2 : k0_cond2 i = 1#1) (h3 : ¬ k0_cond3 i = 1#1)
    (a : Vec F S1024x1024 .f32) (w : Vec F S1024x1024 .bf16) (b : Vec F S1x1024 .f32)
    (r : Vec F S1024x1024 .f32) (o : Vec F S1024x1024 .f32)
    (E : Set ℕ) (K : PUnit → sProp 𝕄) :
    iprop(owns (c : Thread nD τ) arg3 fullShare a ∗ owns (c : Thread nD τ) arg4 fullShare w
        ∗ owns (c : Thread nD τ) arg5 fullShare b ∗ owns (c : Thread nD τ) arg6 fullShare r
        ∗ owns (c : Thread nD τ) arg7 fullShare o
        ∗ (iprop(owns (c : Thread nD τ) arg3 fullShare a ∗ owns (c : Thread nD τ) arg4 fullShare w
            ∗ owns (c : Thread nD τ) arg5 fullShare b ∗ owns (c : Thread nD τ) arg6 fullShare r
            ∗ owns (c : Thread nD τ) arg7 fullShare (k0_pay2 a w o)) -∗ K ⟨⟩))
      ⊢ wp frame (wpE (defs₀ (F := F)) Variants.none c none) E
          (cc0__matmul_bias_residual_kernel i arg3 harg3 arg4 harg4 arg5 harg5 arg6 harg6 arg7 harg7) K := by
  simp only [cc0__matmul_bias_residual_kernel_eq_skeleton]; unfold cc0__matmul_bias_residual_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  refine (read_after_whole_store _ _ offs_zero _ _ _).trans ?_
  simp only [View.readAt_eq_ld, harg3.read_unread, harg4.read_unread, harg7.read_unread,
    View.ld_unit_zero (S := S1024x1024) offs_zero]

/-- k = 3: the output block ends at what it held plus the product, plus the bias row on every row, plus the residual block. -/
theorem body_last (c : Dev nD) (i : grid0.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (h1 : ¬ k0_cond1 i = 1#1) (h2 : k0_cond2 i = 1#1) (h3 : k0_cond3 i = 1#1)
    (a : Vec F S1024x1024 .f32) (w : Vec F S1024x1024 .bf16) (b : Vec F S1x1024 .f32)
    (r : Vec F S1024x1024 .f32) (o : Vec F S1024x1024 .f32)
    (E : Set ℕ) (K : PUnit → sProp 𝕄) :
    iprop(owns (c : Thread nD τ) arg3 fullShare a ∗ owns (c : Thread nD τ) arg4 fullShare w
        ∗ owns (c : Thread nD τ) arg5 fullShare b ∗ owns (c : Thread nD τ) arg6 fullShare r
        ∗ owns (c : Thread nD τ) arg7 fullShare o
        ∗ (iprop(owns (c : Thread nD τ) arg3 fullShare a ∗ owns (c : Thread nD τ) arg4 fullShare w
            ∗ owns (c : Thread nD τ) arg5 fullShare b ∗ owns (c : Thread nD τ) arg6 fullShare r
            ∗ owns (c : Thread nD τ) arg7 fullShare (k0_pay3 (k0_pay2 a w o) b r)) -∗ K ⟨⟩))
      ⊢ wp frame (wpE (defs₀ (F := F)) Variants.none c none) E
          (cc0__matmul_bias_residual_kernel i arg3 harg3 arg4 harg4 arg5 harg5 arg6 harg6 arg7 harg7) K := by
  simp only [cc0__matmul_bias_residual_kernel_eq_skeleton]; unfold cc0__matmul_bias_residual_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  obtain rfl := harg3.eq_unread hf3; obtain rfl := harg4.eq_unread hf4; obtain rfl := harg5.eq_unread hf5
  obtain rfl := harg6.eq_unread hf6; obtain rfl := harg7.eq_unread hf7
  sl_exec (disch := first | exact h1 | exact h2 | exact h3)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  refine (read_after_whole_store _ _ offs_zero _ _ _).trans ?_
  sl_unfold_words
  simp only [View.readCov_unit_zero (S := S1024x1024) _ offs_zero, View.readAt_eq_ld, harg3.read_unread,
    harg4.read_unread, harg5.read_unread, harg6.read_unread, harg7.read_unread,
    View.ld_unit_zero (S := S1024x1024) offs_zero, View.ld_unit_zero (S := S1x1024) offs_zero_row]

end Cert.KernelIdeal.Body

end
-- ==== Proof.KernelIdealFrame.lean ====
/-
  The frame of the program with the blocked matrix product: proof data, body obligation, run.

  The grid has 8 x 4 x 4 = 128 points, numbered with the last coordinate k fastest, so a point's number mod 4 is
  its k.  Four input windows hand the body, at every point, the point's block of the activations, of the weights,
  of the bias row and of the residual; none is ever changed.  The output window's block is the running total of
  the four products of one (row block, column block) pair: it is started at k = 0, grows at k = 1, 2, is finished
  (bias and residual added) at k = 3, and is written back to the result array after k = 3 only — so between two
  points of one pair the block the body finds is the block the body left, and at k = 0 whatever it finds is
  replaced whole.  `total` says what the block holds after each point, by recursion on the point's number; the
  body's three cases then give the obligation at every point, and the launch rule for a region followed by host
  operations gives the run, from which the frame claim is read off.
-/
import proofs.«431422_j47407849013389_3_alg».proof.Proof.KernelIdealBody
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks the body is handed, by their literal types -/

/-- The point's block of the activations (rows of one row block, positions of one stretch). -/
abbrev actBlk (c : Dev nD) (t : Fin cfg0.N) : Vec F S1024x1024 .f32 := iblk m c 0 t
/-- The point's block of the weights (positions of one stretch, columns of one column block). -/
abbrev wgtBlk (c : Dev nD) (t : Fin cfg0.N) : Vec F S1024x1024 .bf16 := iblk m c 1 t
/-- The point's stretch of the bias row. -/
abbrev biasBlk (c : Dev nD) (t : Fin cfg0.N) : Vec F S1x1024 .f32 := iblk m c 2 t
/-- The point's block of the residual. -/
abbrev resBlk (c : Dev nD) (t : Fin cfg0.N) : Vec F S1024x1024 .f32 := iblk m c 3 t

/-! ## The running total -/

/-- What the output block holds after the body at the point numbered `n`: at k = 0 the point's product; at
    k = 1, 2 the product added to what the point before left; at k = 3 that, plus the bias row, plus the residual. -/
def total (c : Dev nD) : (n : ℕ) → n < cfg0.N → Vec F S1024x1024 .f32
  | 0, hn => k0_pay1 (actBlk m c ⟨0, hn⟩) (wgtBlk m c ⟨0, hn⟩)
  | n + 1, hn =>
    if (n + 1) % 4 = 0 then k0_pay1 (actBlk m c ⟨n + 1, hn⟩) (wgtBlk m c ⟨n + 1, hn⟩)
    else if (n + 1) % 4 = 3 then
      k0_pay3 (k0_pay2 (actBlk m c ⟨n + 1, hn⟩) (wgtBlk m c ⟨n + 1, hn⟩) (total c n (Nat.lt_of_succ_lt hn)))
        (biasBlk m c ⟨n + 1, hn⟩) (resBlk m c ⟨n + 1, hn⟩)
    else k0_pay2 (actBlk m c ⟨n + 1, hn⟩) (wgtBlk m c ⟨n + 1, hn⟩) (total c n (Nat.lt_of_succ_lt hn))

/-- At k = 0 the total is the point's product alone. -/
theorem total_first (c : Dev nD) (t : Fin cfg0.N) (h0 : t.val % 4 = 0) :
    total m c t.val t.isLt = k0_pay1 (actBlk m c t) (wgtBlk m c t) := by
  obtain ⟨n, hn⟩ := t
  cases n with
  | zero => rfl
  | succ n => exact (if_pos h0).trans rfl

/-- At k = 1, 2 it is the product added to the total of the point before. -/
theorem total_middle (c : Dev nD) (t : Fin cfg0.N) (h0 : ¬t.val % 4 = 0) (h3 : ¬t.val % 4 = 3) :
    total m c t.val t.isLt
      = k0_pay2 (actBlk m c t) (wgtBlk m c t) (total m c (t.val - 1) (Nat.lt_of_le_of_lt (Nat.sub_le _ _) t.isLt)) := by
  obtain ⟨n, hn⟩ := t
  cases n with
  | zero => exact absurd (Nat.zero_mod _) h0
  | succ n => exact (if_neg h0).trans ((if_neg h3).trans rfl)

/-- At k = 3 the bias row and the residual are added on top of that. -/
theorem total_last (c : Dev nD) (t : Fin cfg0.N) (h3 : t.val % 4 = 3) :
    total m c t.val t.isLt
      = k0_pay3 (k0_pay2 (actBlk m c t) (wgtBlk m c t) (total m c (t.val - 1) (Nat.lt_of_le_of_lt (Nat.sub_le _ _) t.isLt)))
          (biasBlk m c t) (resBlk m c t) := by
  obtain ⟨n, hn⟩ := t
  cases n with
  | zero => exact absurd h3 (by show ¬(0 % 4 = 3); decide)
  | succ n => exact (if_neg (by dsimp only at h3 ⊢; omega)).trans ((if_pos h3).trans rfl)

/-! ## The proof data -/

/-- On core `c`: the arrays as the region finds them; after the body each input block unchanged and the output
    block at the running total; the region's own invariant (the scoped rest and the generator register); nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => total m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_act (c : Dev nD) (t : Fin cfg0.N) : (dats m 0 c).after 0 t = iblk m c 0 t := by dsimp only [dats]
theorem after_wgt (c : Dev nD) (t : Fin cfg0.N) : (dats m 0 c).after 1 t = iblk m c 1 t := by dsimp only [dats]
theorem after_bias (c : Dev nD) (t : Fin cfg0.N) : (dats m 0 c).after 2 t = iblk m c 2 t := by dsimp only [dats]
theorem after_res (c : Dev nD) (t : Fin cfg0.N) : (dats m 0 c).after 3 t = iblk m c 3 t := by dsimp only [dats]
theorem after_out (c : Dev nD) (t : Fin cfg0.N) : (dats m 0 c).after 4 t = total m c t.val t.isLt := by dsimp only [dats]

/-- Each input window's buffer holds the point's block, whether the point fetched it or an earlier one did. -/
theorem before_act (c : Dev nD) (t : Fin cfg0.N) (d) : (dats m 0 c).before 0 t d = iblk m c 0 t :=
  before0_0_of m (dats m 0 c) (A_eq m c 0) (after_act m c) t d
theorem before_wgt (c : Dev nD) (t : Fin cfg0.N) (d) : (dats m 0 c).before 1 t d = iblk m c 1 t :=
  before0_1_of m (dats m 0 c) (A_eq m c 1) (after_wgt m c) t d
theorem before_bias (c : Dev nD) (t : Fin cfg0.N) (d) : (dats m 0 c).before 2 t d = iblk m c 2 t :=
  before0_2_of m (dats m 0 c) (A_eq m c 2) (after_bias m c) t d
theorem before_res (c : Dev nD) (t : Fin cfg0.N) (d) : (dats m 0 c).before 3 t d = iblk m c 3 t :=
  before0_3_of m (dats m 0 c) (A_eq m c 3) (after_res m c) t d

/-- At k = 0 the output window's buffer is fresh (the first point, or the point before wrote the block back):
    it holds anything. -/
theorem before_out_first (c : Dev nD) (t : Fin cfg0.N) (h0 : t.val % 4 = 0) (d) : (dats m 0 c).before 4 t d = d :=
  Dat.before_out_reset _ 4 rfl t (by
    by_cases ht : t.val = 0
    · exact .inl ht
    · exact .inr ⟨ht, (flush0_4 _).mpr (by dsimp only; omega)⟩) d

/-- At k ≠ 0 it holds the running total the point before left: the point is not the first, the block was not
    written back in between, the window is stored into at every point and its blocks are whole. -/
theorem before_out_later (c : Dev nD) (t : Fin cfg0.N) (h0 : ¬t.val % 4 = 0) (d) :
    (dats m 0 c).before 4 t d = total m c (t.val - 1) (Nat.lt_of_le_of_lt (Nat.sub_le _ _) t.isLt) := by
  rw [Dat.before_out_kept _ 4 rfl t (by omega)
    (Bool.eq_false_iff.mpr fun h => by have := (flush0_4 _).mp h; dsimp only at this; omega) out_live (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 800000 in
/-- The body at any point: the inputs' buffers hold their blocks; the point's number mod 4 says which of the three
    cases applies and what the output's buffer holds; that case's run applies; the invariant passes through
    unread and nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_act, before_wgt, before_bias, before_res]
  rw [show (dats m 0 c).Φ t.succ = (dats m 0 c).Φ t.castSucc from rfl,
    show (dats m 0 c).owesAt () t.succ = (dats m 0 c).owesAt () t.castSucc from rfl,
    after_act, after_wgt, after_bias, after_res, after_out]
  by_cases h0 : t.val % 4 = 0
  · rw [total_first m c t h0]
    simp only [before_out_first m c t h0]
    iintro ⟨HΦ, Ho, ⟨%d0, H0⟩, ⟨%d1, H1⟩, ⟨%d2, H2⟩, ⟨%d3, H3⟩, ⟨%d4, H4⟩⟩
    iapply (body_first c (grid0.coords t) _ _ _ _ _ _ _ _ _ _ ((first_iff t).mpr h0)
      (fun h => (later_iff t).mp h h0) (fun h => by have := (last_iff t).mp h; omega)
      (actBlk m c t) (wgtBlk m c t) (biasBlk m c t) (resBlk m c t) d4 Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before_out_later m c t h0]
    by_cases h3 : t.val % 4 = 3
    · rw [total_last m c t h3]
      iintro ⟨HΦ, Ho, ⟨%d0, H0⟩, ⟨%d1, H1⟩, ⟨%d2, H2⟩, ⟨%d3, H3⟩, ⟨%d4, H4⟩⟩
      iapply (body_last c (grid0.coords t) _ _ _ _ _ _ _ _ _ _ (fun h => h0 ((first_iff t).mp h))
        ((later_iff t).mpr h0) ((last_iff t).mpr h3)
        (actBlk m c t) (wgtBlk m c t) (biasBlk m c t) (resBlk m c t)
        (total m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [total_middle m c t h0 h3]
      iintro ⟨HΦ, Ho, ⟨%d0, H0⟩, ⟨%d1, H1⟩, ⟨%d2, H2⟩, ⟨%d3, H3⟩, ⟨%d4, H4⟩⟩
      iapply (body_middle c (grid0.coords t) _ _ _ _ _ _ _ _ _ _ (fun h => h0 ((first_iff t).mp h))
        ((later_iff t).mpr h0) (fun h => h3 ((last_iff t).mp h))
        (actBlk m c t) (wgtBlk m c t) (biasBlk m c t) (resBlk m c t)
        (total m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4

/-- The body obligation, at every point: the output window is stored into at every point, so the
    obligation's clause for an idle window never applies. -/
theorem body_obligation (c : Dev nD) : BodyObligation (dats (F := F) m 0 c) (defs₀ (F := F)) Variants.none () Set.univ := fun t => by
  rw [bigSep_W0, bigSep_W0]
  have hl : idle0 4 (grid0.coords t) = false := out_live _
  simp only [hl]
  exact sound_body m c t

/-! ## The run and the frame -/

set_option backward.isDefEq.respectTransparency.types false in
/-- From any memory with zero counters every weakly fair execution of the program terminates, each array of the
    pipeline ends at what the proof data say and every other unscoped buffer as the host operations after the
    region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance: the program runs to the end, faults nowhere, and its six argument arrays end
    as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.KernelIdealPayload.lean ====
/-
  The three values the body stores, read at an entry of the block, over the extended reals.

  At the ideal instance a float is an extended real, every operation the exact one and a change of float format the
  identity.  So, at row p and column q of the 1024 x 1024 block:
    * the product of the activations' block a and the weights' block w is  sum over l < 1024 of a(p,l) * w(l,q)
      (the matrix unit starts from a zero block; rounding the activations to the narrower format changes nothing);
    * the grown total is what the block held at (p,q) plus that product;
    * the finished total is what the block held at (p,q), plus the bias row's entry q (the row is repeated down
      the 1024 rows), plus the residual's entry (p,q).
-/
import proofs.«431422_j47407849013389_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Out

open Cert.KernelIdeal Cert.KernelIdeal.Gen
open Idealize.ShloMosaic Idealize.ShloMosaic.TcCoe Idealize.SL.Sem Idealize.ShloMosaic.ValueIdx
open scoped BigOperators

/-! ## Where the matrix product reads its operands -/

/-- The left operand is read at the result's row; -/
theorem lhs_row (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- and at the summed position. -/
theorem lhs_pos (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k
/-- The right operand is read at the summed position; -/
theorem rhs_pos (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k
/-- and at the result's column. -/
theorem rhs_col (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The three stored values at an entry -/

/-- The product block at (p, q): the sum over the 1024 positions of the stretch. -/
theorem prod_apply (a : Vec Ideal S1024x1024 .f32) (w : Vec Ideal S1024x1024 .bf16) (p q : Fin 1024) :
    k0_pay1 (F := Ideal) a w (ix2 p q) = ∑ l : Fin 1024, a (ix2 p l) * w (ix2 l q) := by
  unfold k0_pay1
  simp only [shapeCast_self]
  refine (Ideal.matmul_constant_zero_apply (φ₁ := .bf16) (φ₂ := .bf16) dot_S1024x1024_S1024x1024_S1024x1024_1_0_0_1_n_n none _ _ (ix2 p q)).trans ?_
  rw [← Equiv.sum_comp (ValueIdx.contrEquiv1 dot_S1024x1024_S1024x1024_S1024x1024_1_0_0_1_n_n 1024 rfl rfl).symm]
  refine Finset.sum_congr rfl fun l _ => ?_
  have hl := ValueIdx.contrEquiv1_symm_val dot_S1024x1024_S1024x1024_S1024x1024_1_0_0_1_n_n 1024 rfl rfl l
  have el : dot_S1024x1024_S1024x1024_S1024x1024_1_0_0_1_n_n.lhsIdx (ix2 p q) ((ValueIdx.contrEquiv1 dot_S1024x1024_S1024x1024_S1024x1024_1_0_0_1_n_n 1024 rfl rfl).symm l) = ix2 p l := funext fun x => Fin.ext (by
    match x with
    | ⟨0, _⟩ => exact lhs_row _ _
    | ⟨1, _⟩ => exact (lhs_pos _ _).trans hl)
  have er : dot_S1024x1024_S1024x1024_S1024x1024_1_0_0_1_n_n.rhsIdx (ix2 p q) ((ValueIdx.contrEquiv1 dot_S1024x1024_S1024x1024_S1024x1024_1_0_0_1_n_n 1024 rfl rfl).symm l) = ix2 l q := funext fun x => Fin.ext (by
    match x with
    | ⟨0, _⟩ => exact (rhs_pos _ _).trans hl
    | ⟨1, _⟩ => exact rhs_col _ _)
  rw [el, er]
  rfl

/-- The grown total at an entry: what the block held there plus the product there. -/
theorem grow_apply (a : Vec Ideal S1024x1024 .f32) (w : Vec Ideal S1024x1024 .bf16) (o : Vec Ideal S1024x1024 .f32)
    (j : S1024x1024.Idx) :
    k0_pay2 (F := Ideal) a w o j = o j + k0_pay1 (F := Ideal) a w j := by
  unfold k0_pay2
  simp only [shapeCast_self]
  rfl

/-- The finished total at (p, q): what the block held, plus the bias row's entry q, plus the residual's entry. -/
theorem finish_apply (o : Vec Ideal S1024x1024 .f32) (b : Vec Ideal S1x1024 .f32) (r : Vec Ideal S1024x1024 .f32)
    (p q : Fin 1024) :
    k0_pay3 (F := Ideal) o b r (ix2 p q) = (o (ix2 p q) + b (ix2 0 q)) + r (ix2 p q) := by
  unfold k0_pay3
  simp only [shapeCast_self]
  rw [addf_apply, addf_apply,
    broadcastTo_apply b broadcasts_S1x1024_S1024x1024 (ix2 p q) (ix2 0 q) (fun x => match x with
      | ⟨0, _⟩ => by show 0 = if (1 : Nat) = 1 then 0 else _; rw [if_pos rfl]
      | ⟨1, _⟩ => by show q.val = if (1024 : Nat) = 1 then 0 else q.val; rw [if_neg (by decide)])]

end Cert.KernelIdeal.Out

end
-- ==== Proof.LibDotUpTo.lean ====
/-
  Inner products over an initial stretch of the contraction axis.

  The kernel builds the inner product of a row of the activations with a row of the weights in eight stretches of
  512 columns; the reference takes it over all 4096 columns at once.  Both are sums of the same 4096 products of
  extended reals, and addition of extended reals is commutative and associative, so all that is needed is: the sum
  over the first `n + B` columns is the sum over the first `n` followed by `B` more terms, and the sum over all the
  columns is the sum over the column index.  Arrays are read at natural-number coordinates (zero outside the array),
  which keeps the bookkeeping of block offsets in plain arithmetic.
-/
import Idealize.ShloMosaic.Lib.ValueIdx
import Mathlib.Algebra.BigOperators.Intervals
import Mathlib.Algebra.BigOperators.Fin

noncomputable section

open scoped BigOperators
open Idealize.ShloMosaic Idealize.ShloMosaic.ValueIdx

namespace Cert.QLinear

/-- A two-dimensional array of extended reals read at natural-number coordinates: zero outside the array. -/
def at2 {a b : ℕ} (X : (⟨2, ![a, b]⟩ : Shape).Idx → EReal) (r k : ℕ) : EReal :=
  if h : r < a ∧ k < b then X (ix2 ⟨r, h.1⟩ ⟨k, h.2⟩) else 0

/-- Inside the array it is the entry. -/
theorem at2_of_lt {a b : ℕ} (X : (⟨2, ![a, b]⟩ : Shape).Idx → EReal) (r k : ℕ) (hr : r < a) (hk : k < b) :
    at2 X r k = X (ix2 ⟨r, hr⟩ ⟨k, hk⟩) := dif_pos ⟨hr, hk⟩

/-- The inner product of row `r` of `X` with row `o` of `W` over the first `n` columns. -/
def dotUpTo {a b K : ℕ} (X : (⟨2, ![a, K]⟩ : Shape).Idx → EReal) (W : (⟨2, ![b, K]⟩ : Shape).Idx → EReal)
    (r o n : ℕ) : EReal :=
  ∑ k ∈ Finset.range n, at2 X r k * at2 W o k

/-- Over no column it is zero. -/
theorem dotUpTo_zero {a b K : ℕ} (X : (⟨2, ![a, K]⟩ : Shape).Idx → EReal) (W : (⟨2, ![b, K]⟩ : Shape).Idx → EReal)
    (r o : ℕ) : dotUpTo X W r o 0 = 0 := by
  unfold dotUpTo; exact Finset.sum_range_zero _

/-- A stretch of `B` more columns adds their products. -/
theorem dotUpTo_add {a b K : ℕ} (X : (⟨2, ![a, K]⟩ : Shape).Idx → EReal) (W : (⟨2, ![b, K]⟩ : Shape).Idx → EReal)
    (r o n B : ℕ) :
    dotUpTo X W r o (n + B) = dotUpTo X W r o n + ∑ l : Fin B, at2 X r (n + l.val) * at2 W o (n + l.val) := by
  unfold dotUpTo
  rw [Finset.sum_range_add]
  refine congrArg (_ + ·) ?_
  exact Finset.sum_range fun x => at2 X r (n + x) * at2 W o (n + x)

/-- Over all the columns it is the sum over the column index. -/
theorem dotUpTo_full {a b K : ℕ} (X : (⟨2, ![a, K]⟩ : Shape).Idx → EReal) (W : (⟨2, ![b, K]⟩ : Shape).Idx → EReal)
    (r o : ℕ) (hr : r < a) (ho : o < b) :
    dotUpTo X W r o K = ∑ k : Fin K, X (ix2 ⟨r, hr⟩ k) * W (ix2 ⟨o, ho⟩ k) := by
  unfold dotUpTo
  refine (Finset.sum_range fun x => at2 X r x * at2 W o x).trans ?_
  refine Finset.sum_congr rfl fun k _ => ?_
  rw [at2_of_lt X r k.val hr k.isLt, at2_of_lt W o k.val ho k.isLt]

end Cert.QLinear

end
-- ==== Proof.KernelIdealBlocks.lean ====
/-
  What the idealized kernel's result array holds, entry by entry.

  Number the 128 grid points with the last coordinate fastest: point t works on row block t / 16 of the
  activations (1024 rows each), on column block (t / 4) mod 4 of the weights (1024 columns each) and on stretch
  t mod 4 of the summed positions (1024 positions each).  Reading the arrays at natural-number coordinates, the
  block entries the body is handed are entries of the whole arrays at "block number x 1024 + place in the block".

  The output block of one (row block, column block) pair lives through four consecutive points, t mod 4 = 0, 1, 2, 3.
  By induction on the point's number, after the point with t mod 4 = k < 3 its entry (p, q) is the sum of the first
  k + 1 stretches' partial inner products, added up from the left; after t mod 4 = 3 it is that for all four
  stretches, plus the bias entry of the column, plus the residual entry.  Only the points with t mod 4 = 3 write the
  block back, and their blocks tile the result array, so the array ends as ONE function of the four arrays.
-/
import proofs.«431422_j47407849013389_3_alg».proof.Proof.KernelIdealFrame
import proofs.«431422_j47407849013389_3_alg».proof.Proof.KernelIdealPayload
import proofs.«431422_j47407849013389_3_alg».proof.Proof.LibDotUpTo

set_option maxRecDepth 16384

noncomputable section

namespace Cert.KernelIdeal.Out

open Cert.KernelIdeal Cert.KernelIdeal.Gen Cert.KernelIdeal.Body Cert.QLinear
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-! ## The four arrays the region finds, by their literal types -/

/-- The activations, 8192 rows of 4096 positions. -/
abbrev actArr (c : Dev nD) : S8192x4096.Idx → EReal := V m c main_v33
/-- The weights, 4096 positions by 4096 columns. -/
abbrev wgtArr (c : Dev nD) : S4096x4096.Idx → EReal := V m c main_v32
/-- The bias, one row of 4096 columns. -/
abbrev biasArr (c : Dev nD) : S1x4096.Idx → EReal := V m c main_v35
/-- The residual, 8192 rows of 4096 columns. -/
abbrev resArr (c : Dev nD) : S8192x4096.Idx → EReal := V m c main_v34

/-! ## Which blocks a point works on -/

/-- The windows' block indices as functions of the point's number, decided over the grid. -/
theorem block_index : ∀ t : Fin cfg0.N,
    (win0_0.index t (0 : Fin 2) = t.val / 16 ∧ win0_0.index t (1 : Fin 2) = t.val % 4)
    ∧ (win0_1.index t (0 : Fin 2) = t.val % 4 ∧ win0_1.index t (1 : Fin 2) = t.val / 4 % 4)
    ∧ (win0_2.index t (0 : Fin 2) = 0 ∧ win0_2.index t (1 : Fin 2) = t.val / 4 % 4)
    ∧ (win0_3.index t (0 : Fin 2) = t.val / 16 ∧ win0_3.index t (1 : Fin 2) = t.val / 4 % 4)
    ∧ (win0_4.index t (0 : Fin 2) = t.val / 16 ∧ win0_4.index t (1 : Fin 2) = t.val / 4 % 4) :=
  (by decide +kernel : ∀ t : Fin grid0.N, _)

theorem points : cfg0.N = 128 := N_0

/-! ## The block entries as entries of the arrays -/

/-- Entry (p, l) of the point's block of activations. -/
theorem act_entry (c : Dev nD) (t : Fin cfg0.N) (p l : Fin 1024) :
    actBlk m c t (ix2 p l) = at2 (actArr m c) (t.val / 16 * 1024 + p.val) (t.val % 4 * 1024 + l.val) := by
  have hN : t.val < 128 := lt_of_lt_of_eq t.isLt points
  have hi := (block_index t).1
  rw [at2_of_lt _ _ _ (by have := p.isLt; omega) (by have := l.isLt; omega)]
  show iblk m c 0 t (ix2 p l) = _
  unfold iblk
  rw [View.read_apply]
  show V m c main_v33 _ = V m c main_v33 _
  congr 1
  funext x
  apply Fin.ext
  match x with
  | ⟨0, _⟩ => show win0_0.index t (0 : Fin 2) * 1024 + 1 * p.val = t.val / 16 * 1024 + p.val; rw [hi.1]; omega
  | ⟨1, _⟩ => show win0_0.index t (1 : Fin 2) * 1024 + 1 * l.val = t.val % 4 * 1024 + l.val; rw [hi.2]; omega

/-- Entry (l, q) of the point's block of weights. -/
theorem wgt_entry (c : Dev nD) (t : Fin cfg0.N) (l q : Fin 1024) :
    wgtBlk m c t (ix2 l q) = at2 (wgtArr m c) (t.val % 4 * 1024 + l.val) (t.val / 4 % 4 * 1024 + q.val) := by
  have hN : t.val < 128 := lt_of_lt_of_eq t.isLt points
  have hi := (block_index t).2.1
  rw [at2_of_lt _ _ _ (by have := l.isLt; omega) (by have := q.isLt; omega)]
  show iblk m c 1 t (ix2 l q) = _
  unfold iblk
  rw [View.read_apply]
  show V m c main_v32 _ = V m c main_v32 _
  congr 1
  funext x
  apply Fin.ext
  match x with
  | ⟨0, _⟩ => show win0_1.index t (0 : Fin 2) * 1024 + 1 * l.val = t.val % 4 * 1024 + l.val; rw [hi.1]; omega
  | ⟨1, _⟩ => show win0_1.index t (1 : Fin 2) * 1024 + 1 * q.val = t.val / 4 % 4 * 1024 + q.val; rw [hi.2]; omega

/-- Entry q of the point's stretch of the bias row. -/
theorem bias_entry (c : Dev nD) (t : Fin cfg0.N) (q : Fin 1024) :
    biasBlk m c t (ix2 0 q) = at2 (biasArr m c) 0 (t.val / 4 % 4 * 1024 + q.val) := by
  have hN : t.val < 128 := lt_of_lt_of_eq t.isLt points
  have hi := (block_index t).2.2.1
  rw [at2_of_lt _ _ _ (by omega) (by have := q.isLt; omega)]
  show iblk m c 2 t (ix2 0 q) = _
  unfold iblk
  rw [View.read_apply]
  show V m c main_v35 _ = V m c main_v35 _
  congr 1
  funext x
  apply Fin.ext
  match x with
  | ⟨0, _⟩ => show win0_2.index t (0 : Fin 2) * 1 + 1 * 0 = 0; rw [hi.1]
  | ⟨1, _⟩ => show win0_2.index t (1 : Fin 2) * 1024 + 1 * q.val = t.val / 4 % 4 * 1024 + q.val; rw [hi.2]; omega

/-- Entry (p, q) of the point's block of the residual. -/
theorem res_entry (c : Dev nD) (t : Fin cfg0.N) (p q : Fin 1024) :
    resBlk m c t (ix2 p q) = at2 (resArr m c) (t.val / 16 * 1024 + p.val) (t.val / 4 % 4 * 1024 + q.val) := by
  have hN : t.val < 128 := lt_of_lt_of_eq t.isLt points
  have hi := (block_index t).2.2.2.1
  rw [at2_of_lt _ _ _ (by have := p.isLt; omega) (by have := q.isLt; omega)]
  show iblk m c 3 t (ix2 p q) = _
  unfold iblk
  rw [View.read_apply]
  show V m c main_v34 _ = V m c main_v34 _
  congr 1
  funext x
  apply Fin.ext
  match x with
  | ⟨0, _⟩ => show win0_3.index t (0 : Fin 2) * 1024 + 1 * p.val = t.val / 16 * 1024 + p.val; rw [hi.1]; omega
  | ⟨1, _⟩ => show win0_3.index t (1 : Fin 2) * 1024 + 1 * q.val = t.val / 4 % 4 * 1024 + q.val; rw [hi.2]; omega

end Cert.KernelIdeal.Out

end
-- ==== Proof.KernelIdealTotals.lean ====
/-
  The running total at an entry, and the result array as one function.

  Fix an entry: row `row` of the activations, column `col` of the weights.  `stretchSum row col s` is the partial
  inner product over stretch s (positions s * 1024 ... s * 1024 + 1023), and `upTo f k` is f 0 + f 1 + ... + f k
  added from the left — the order in which the kernel builds its running total.  By induction on the point's
  number n, with k = n mod 4: after point n the output block's entry (p, q) is `upTo` of the stretch sums through
  stretch k (for k < 3), and for k = 3 that for all four stretches, plus the bias entry, plus the residual entry;
  the row and column are those of the point's row block and column block, which do not change inside one sweep
  of k.  The points with k = 3 write their blocks back and these blocks tile the 8192 x 4096 result array, so the
  array ends at `result`: the same expression at every entry.
-/
import proofs.«431422_j47407849013389_3_alg».proof.Proof.KernelIdealBlocks

set_option maxRecDepth 16384

noncomputable section

namespace Cert.KernelIdeal.Out

open Cert.KernelIdeal Cert.KernelIdeal.Gen Cert.KernelIdeal.Body Cert.QLinear
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ)

/-! ## Partial inner products -/

/-- The inner product of row `row` of the activations with column `col` of the weights over stretch `s`. -/
def stretchSum (c : Dev nD) (row col s : ℕ) : EReal :=
  ∑ l : Fin 1024, at2 (actArr m c) row (s * 1024 + l.val) * at2 (wgtArr m c) (s * 1024 + l.val) col

/-- `f 0 + f 1 + ... + f k`, added from the left. -/
def upTo (f : ℕ → EReal) : ℕ → EReal
  | 0 => f 0
  | k + 1 => upTo f k + f (k + 1)

/-- The product the body forms at the point numbered `n`, at entry (p, q): the stretch sum of the point's stretch. -/
theorem prod_entry (c : Dev nD) (n : ℕ) (hn : n < cfg0.N) (p q : Fin 1024) :
    k0_pay1 (F := Ideal) (actBlk m c ⟨n, hn⟩) (wgtBlk m c ⟨n, hn⟩) (ix2 p q)
      = stretchSum m c (n / 16 * 1024 + p.val) (n / 4 % 4 * 1024 + q.val) (n % 4) := by
  refine (prod_apply (actBlk m c ⟨n, hn⟩) (wgtBlk m c ⟨n, hn⟩) p q).trans ?_
  unfold stretchSum
  refine Finset.sum_congr rfl fun l _ => ?_
  have ea : actBlk m c ⟨n, hn⟩ (ix2 p l) = at2 (actArr m c) (n / 16 * 1024 + p.val) (n % 4 * 1024 + l.val) :=
    act_entry m c ⟨n, hn⟩ p l
  have ew : wgtBlk m c ⟨n, hn⟩ (ix2 l q) = at2 (wgtArr m c) (n % 4 * 1024 + l.val) (n / 4 % 4 * 1024 + q.val) :=
    wgt_entry m c ⟨n, hn⟩ l q
  rw [ea, ew]

/-! ## The running total at an entry -/

/-- After the point numbered `n`: the stretch sums through the point's own stretch, added from the left; at the
    last stretch the bias entry and the residual entry on top. -/
theorem total_entry (c : Dev nD) : ∀ (n : ℕ) (hn : n < cfg0.N) (p q : Fin 1024),
    (n % 4 ≠ 3 → total m c n hn (ix2 p q)
        = upTo (stretchSum m c (n / 16 * 1024 + p.val) (n / 4 % 4 * 1024 + q.val)) (n % 4))
    ∧ (n % 4 = 3 → total m c n hn (ix2 p q)
        = (upTo (stretchSum m c (n / 16 * 1024 + p.val) (n / 4 % 4 * 1024 + q.val)) 3
            + at2 (biasArr m c) 0 (n / 4 % 4 * 1024 + q.val))
          + at2 (resArr m c) (n / 16 * 1024 + p.val) (n / 4 % 4 * 1024 + q.val)) := by
  intro n
  induction n with
  | zero =>
    intro hn p q
    refine ⟨fun _ => ?_, fun h => absurd h (by decide)⟩
    exact prod_entry m c 0 hn p q
  | succ n ih =>
    intro hn p q
    have hn' : n < cfg0.N := Nat.lt_of_succ_lt hn
    obtain ⟨ih1, -⟩ := ih hn' p q
    have hN : n + 1 < 128 := lt_of_lt_of_eq hn points
    by_cases h0 : (n + 1) % 4 = 0
    · -- a new sweep starts: the block is the point's product alone
      refine ⟨fun _ => ?_, fun h => by omega⟩
      have e : total m c (n + 1) hn = k0_pay1 (actBlk m c ⟨n + 1, hn⟩) (wgtBlk m c ⟨n + 1, hn⟩) := total_first m c ⟨n + 1, hn⟩ h0
      rw [e]
      refine (prod_entry m c (n + 1) hn p q).trans ?_
      rw [h0]
      rfl
    · have a1 : n / 16 = (n + 1) / 16 := by omega
      have a2 : n / 4 % 4 = (n + 1) / 4 % 4 := by omega
      have hk : n % 4 ≠ 3 := by omega
      by_cases h3 : (n + 1) % 4 = 3
      · -- the sweep ends: the product is added, then the bias entry, then the residual entry
        refine ⟨fun h => absurd h3 h, fun _ => ?_⟩
        have e : total m c (n + 1) hn
            = k0_pay3 (k0_pay2 (actBlk m c ⟨n + 1, hn⟩) (wgtBlk m c ⟨n + 1, hn⟩) (total m c n hn')) (biasBlk m c ⟨n + 1, hn⟩) (resBlk m c ⟨n + 1, hn⟩) :=
          total_last m c ⟨n + 1, hn⟩ h3
        have eb : biasBlk m c ⟨n + 1, hn⟩ (ix2 0 q) = at2 (biasArr m c) 0 ((n + 1) / 4 % 4 * 1024 + q.val) :=
          bias_entry m c ⟨n + 1, hn⟩ q
        have er : resBlk m c ⟨n + 1, hn⟩ (ix2 p q)
            = at2 (resArr m c) ((n + 1) / 16 * 1024 + p.val) ((n + 1) / 4 % 4 * 1024 + q.val) :=
          res_entry m c ⟨n + 1, hn⟩ p q
        have a3 : n % 4 = 2 := by omega
        rw [e]
        refine (finish_apply (k0_pay2 (actBlk m c ⟨n + 1, hn⟩) (wgtBlk m c ⟨n + 1, hn⟩) (total m c n hn')) (biasBlk m c ⟨n + 1, hn⟩) (resBlk m c ⟨n + 1, hn⟩) p q).trans ?_
        rw [eb, er]
        refine congrArg (· + _) (congrArg (· + _) ?_)
        refine (grow_apply (actBlk m c ⟨n + 1, hn⟩) (wgtBlk m c ⟨n + 1, hn⟩) (total m c n hn') (ix2 p q)).trans ?_
        rw [ih1 hk, prod_entry m c (n + 1) hn p q, a1, a2, a3, h3]
        rfl
      · -- inside a sweep: the product is added to what the point before left
        refine ⟨fun _ => ?_, fun h => absurd h h3⟩
        have e : total m c (n + 1) hn = k0_pay2 (actBlk m c ⟨n + 1, hn⟩) (wgtBlk m c ⟨n + 1, hn⟩) (total m c n hn') :=
          total_middle m c ⟨n + 1, hn⟩ h0 h3
        have a3 : (n + 1) % 4 = n % 4 + 1 := by omega
        rw [e]
        refine (grow_apply (actBlk m c ⟨n + 1, hn⟩) (wgtBlk m c ⟨n + 1, hn⟩) (total m c n hn') (ix2 p q)).trans ?_
        rw [ih1 hk, prod_entry m c (n + 1) hn p q, a1, a2, a3]
        rfl

/-! ## The result array -/

/-- Every entry of the result: the four stretch sums added from the left, plus the bias entry of the column, plus
    the residual entry. -/
def result (c : Dev nD) : S8192x4096.Idx → EReal := fun i =>
  (upTo (stretchSum m c (i 0).val (i 1).val) 3 + at2 (biasArr m c) 0 (i 1).val)
    + at2 (resArr m c) (i 0).val (i 1).val

/-- What a point with k = 3 writes back is its block of `result`. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : t.val < 128 := lt_of_lt_of_eq t.isLt points
  have hi := (block_index t).2.2.2.2
  show (cfg0.win 4).cut (grid0.coords t) ((dats m 0 c).after 4 t) = _
  rw [after_out]
  funext y
  obtain ⟨p, q, rfl⟩ : ∃ (p q : Fin 1024), y = ix2 p q := ⟨y 0, y 1, eq_ix2 y⟩
  show total m c t.val t.isLt (ix2 p q) = result m c (((cfg0.win 4).blk t).view.emb (ix2 p q))
  refine ((total_entry m c t.val t.isLt p q).2 h3).trans ?_
  have e0 : ((((cfg0.win 4).blk t).view.emb (ix2 p q)) 0).val = t.val / 16 * 1024 + p.val := by
    show win0_4.index t (0 : Fin 2) * 1024 + 1 * p.val = _
    rw [hi.1]; omega
  have e1 : ((((cfg0.win 4).blk t).view.emb (ix2 p q)) 1).val = t.val / 4 % 4 * 1024 + q.val := by
    show win0_4.index t (1 : Fin 2) * 1024 + 1 * q.val = _
    rw [hi.2]; omega
  unfold result
  rw [e0, e1]

/-- An entry of the array lies in a point's block exactly when each coordinate lies in the block's range. -/
theorem mem_out_blk (t : Fin cfg0.N) (i : S8192x4096.Idx) :
    i ∈ ((cfg0.win 4).blk t).view.set ↔ ∀ x : Fin 2, win0_4.index t x * S1024x1024.size x ≤ (i x).val
      ∧ (i x).val < win0_4.index t x * S1024x1024.size x + S1024x1024.size x := by
  show i ∈ ((View.whole main_v36).slice (win0_4.rect t)).set ↔ _
  rw [View.set_slice_whole, Rect.mem_set_unit]
  exact Iff.rfl

/-- Every entry lies in the block of the point that ends the sweep of its row block and column block. -/
theorem covered (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hn : ((i 0).val / 1024 * 4 + (i 1).val / 1024) * 4 + 3 < cfg0.N := by rw [points]; omega
  refine ⟨⟨((i 0).val / 1024 * 4 + (i 1).val / 1024) * 4 + 3, hn⟩, (flush0_4 _).mpr (by dsimp only; omega), ?_⟩
  have hi := (block_index ⟨((i 0).val / 1024 * 4 + (i 1).val / 1024) * 4 + 3, hn⟩).2.2.2.2
  rw [mem_out_blk]
  intro x
  match x with
  | ⟨0, _⟩ =>
    show win0_4.index _ (0 : Fin 2) * 1024 ≤ (i 0).val ∧ (i 0).val < win0_4.index _ (0 : Fin 2) * 1024 + 1024
    rw [hi.1]; dsimp only; omega
  | ⟨1, _⟩ =>
    show win0_4.index _ (1 : Fin 2) * 1024 ≤ (i 1).val ∧ (i 1).val < win0_4.index _ (1 : Fin 2) * 1024 + 1024
    rw [hi.2]; dsimp only; omega

/-- So the result array ends at `result`. -/
theorem final (c : Dev nD) : (dats m 0 c).arrAt 4 cfg0.N = result m c :=
  (dats m 0 c).arrAt_eq_of_cover 4 (result m c) (flushed_eq m c) covered

end Cert.KernelIdeal.Out

end
-- ==== Proof.KernelIdealRun.lean ====
/-
  The host side of the idealized kernel's program, and its run with the result named.

  Before the region the program unpacks the quantized weights and zero points (eight 4-bit fields per word),
  turns both into floats, repeats each group's row of zero points and of scales over the group's 128 positions
  (first to a [32, 1, 4096] array, then along the middle axis, then flattened to [4096, 4096]), forms
  (weight - zero point) * scale, changes its format, and lays the activations, the residual and the bias out as
  two-dimensional arrays.  After the region it lays the [8192, 4096] result out as [2, 4096, 4096].  So the four
  arrays the region finds are these functions of the arguments, and the program's result is the result array of the
  region, re-laid.
-/
import proofs.«431422_j47407849013389_3_alg».proof.Proof.KernelIdealTotals
import Idealize.ShloMosaic.Lib.StableHlo.Run

set_option maxRecDepth 16384

noncomputable section

namespace Cert.KernelIdeal.Out

open Cert.KernelIdeal Cert.KernelIdeal.Gen Cert.KernelIdeal.Body Cert.QLinear
open Idealize.ShloMosaic Idealize.ShloMosaic.TcCoe Idealize.SL.Sem Idealize.ShloMosaic.ValueIdx
open Idealize.ShloMosaic.Pipeline (Dat)
open Idealize.ShloMosaic.StableHlo
open scoped BigOperators

/-! ## The dequantized weights, as the kernel's program forms them -/

/-- Repeating each of the 32 group rows over the group's 128 positions, in the kernel's two steps, flattened. -/
def spread {F : FTy → Type} [FloatOps F] (y : (⟨S32x4096, .f32⟩ : BufTy).Contents (Elt F)) :
    (⟨S4096x4096, .f32⟩ : BufTy).Contents (Elt F) :=
  shapeCast _ (broadcastInDim S32x128x4096 ![0, 1, 2] bcast_S32x1x4096_S32x128x4096_0_1_2
    (broadcastInDim S32x1x4096 ![0, 2] bcast_S32x4096_S32x1x4096_0_2 y)) shapeCasts_S32x128x4096_S4096x4096

/-- The unpacked weights as floats: field (k mod 8) of word k / 8, column by column. -/
def unpackedWeights {F : FTy → Type} [FloatOps F] (x2 : (⟨S512x4096, .i32⟩ : BufTy).Contents (Elt F)) :
    (⟨S4096x4096, .f32⟩ : BufTy).Contents (Elt F) :=
  sitofp .f32 (shapeCast _ (andi (Host.shrsi (broadcastInDim S512x8x4096 ![0, 1, 2] bcast_S512x1x4096_S512x8x4096_0_1_2 (broadcastInDim S512x1x4096 ![0, 2] bcast_S512x4096_S512x1x4096_0_2 (x2))) (broadcastInDim S512x8x4096 ![0, 1, 2] bcast_S1x8x1_S512x8x4096_0_1_2 (broadcastInDim S1x8x1 ![1] bcast_S8_S1x8x1_1 (muli (iotaInDim S8 32 0) (broadcastInDim S8 ![] bcast_S_S8 (constantI S_ 32 4#32)))))) (broadcastInDim S512x8x4096 ![] bcast_S_S512x8x4096 (constantI S_ 32 15#32))) shapeCasts_S512x8x4096_S4096x4096)

/-- The unpacked zero points as floats: field (n mod 8) of word n / 8, group by group. -/
def unpackedZeros {F : FTy → Type} [FloatOps F] (x4 : (⟨S32x512, .i32⟩ : BufTy).Contents (Elt F)) :
    (⟨S32x4096, .f32⟩ : BufTy).Contents (Elt F) :=
  sitofp .f32 (shapeCast _ (andi (Host.shrsi (broadcastInDim S32x512x8 ![0, 1, 2] bcast_S32x512x1_S32x512x8_0_1_2 (broadcastInDim S32x512x1 ![0, 1] bcast_S32x512_S32x512x1_0_1 (x4))) (broadcastInDim S32x512x8 ![0, 1, 2] bcast_S1x1x8_S32x512x8_0_1_2 (broadcastInDim S1x1x8 ![2] bcast_S8_S1x1x8_2 (muli (iotaInDim S8 32 0) (broadcastInDim S8 ![] bcast_S_S8 (constantI S_ 32 4#32)))))) (broadcastInDim S32x512x8 ![] bcast_S_S32x512x8 (constantI S_ 32 15#32))) shapeCasts_S32x512x8_S32x4096)

/-- (weight - zero point of its group) * scale of its group, in the narrower format. -/
def kernelWeights {F : FTy → Type} [FloatOps F] (x2 : (⟨S512x4096, .i32⟩ : BufTy).Contents (Elt F))
    (x3 : (⟨S32x4096, .f32⟩ : BufTy).Contents (Elt F)) (x4 : (⟨S32x512, .i32⟩ : BufTy).Contents (Elt F)) :
    (⟨S4096x4096, .bf16⟩ : BufTy).Contents (Elt F) :=
  truncf .bf16 (mulf (subf (unpackedWeights x2) (spread (unpackedZeros x4))) (spread x3)) bitsLt_bf16_f32

variable (m : (ℓ : Loc nD τ sig) → Buf (Elt Ideal) ℓ) (ρ : Dev nD → PrngReg)

/-! ## The arrays the region finds -/

/-- The activations are the first argument, its two leading axes merged. -/
theorem act_arr (c : Dev nD) :
    actArr m c = shapeCast S8192x4096 (m ((c : Thread nD τ).loc main_arg0)) shapeCasts_S2x4096x4096_S8192x4096 := by
  show StableHlo.after hostOps0 (fun b => m (c, b)) (Proc.devRef .tc main_v33) = _
  after_results
  rfl

/-- The residual is the second argument, its two leading axes merged. -/
theorem res_arr (c : Dev nD) :
    resArr m c = shapeCast S8192x4096 (m ((c : Thread nD τ).loc main_arg1)) shapeCasts_S2x4096x4096_S8192x4096 := by
  show StableHlo.after hostOps0 (fun b => m (c, b)) (Proc.devRef .tc main_v34) = _
  after_results
  rfl

/-- The bias row is the last argument as one row. -/
theorem bias_arr (c : Dev nD) :
    biasArr m c = shapeCast S1x4096 (m ((c : Thread nD τ).loc main_arg5)) shapeCasts_S4096_S1x4096 := by
  show StableHlo.after hostOps0 (fun b => m (c, b)) (Proc.devRef .tc main_v35) = _
  after_results
  rfl

set_option maxHeartbeats 2000000 in
/-- The weights are the dequantized weights of the third, fourth and fifth arguments. -/
theorem wgt_arr (c : Dev nD) :
    wgtArr m c = kernelWeights (F := Ideal) (m ((c : Thread nD τ).loc main_arg2)) (m ((c : Thread nD τ).loc main_arg3))
      (m ((c : Thread nD τ).loc main_arg4)) := by
  show StableHlo.after hostOps0 (fun b => m (c, b)) (Proc.devRef .tc main_v32) = _
  after_results_simp <;> rfl

/-! ## The program's result -/

/-- The result: the region's result array laid out as [2, 4096, 4096]. -/
def out (c : Dev nD) : S2x4096x4096.Idx → EReal :=
  shapeCast S2x4096x4096 (result m c) shapeCasts_S8192x4096_S2x4096x4096

/-- The one host operation after the region re-lays the region's result array. -/
theorem tail_out (c : Dev nD) :
    Pipeline.afterTail₀ cfgs (dats m) 0 (V0 m) [hostOps1] c main_v37 = out m c := by
  have e : Pipeline.withArrays (cfgs 0).spec c (V0 m c) (fun w => (dats m 0 c).arrAt w (cfgs 0).N)
      (Proc.devRef .tc main_v36) = result m c :=
    (Pipeline.withArrays_arr spec0 launch0.win.arr_inj c (V0 m c) (fun w => (dats m 0 c).arrAt w cfg0.N) 4).trans
      (final m c)
  unfold Pipeline.afterTail₀
  show StableHlo.after hostOps1 _ (Proc.devRef .tc main_v37) = _
  after_results
  rw [e]
  rfl

/-- The run, read: the result at `out`, the six arguments unchanged. -/
theorem run : θ_run defs (onTc (τ := τ) (main (F := Ideal))) ⟨m, fun _ => 0, ρ⟩ (fun r => ∀ c : Dev nD,
      r.2.mem ((c.tc : Thread nD τ).loc main_v37) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v37 (Pipeline.mem_restRefs_of main_v37 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Out

end
-- ==== Proof.BlockSum.lean ====
/-
  A sum over 4096 consecutive indices, taken in four stretches of 1024.

  The reference contracts a row of the activations with a column of the weights over all 4096 positions at
  once; the kernel takes the same 4096 products in four stretches of 1024 positions, one stretch per step
  along the last grid axis, adding each stretch's sum to what the steps before left.  Addition in a
  commutative monoid is associative, so the sum over the whole range is the first stretch's sum, plus the
  second's, plus the third's, plus the fourth's, grouped to the left exactly as the running total is built.
  Nothing here is special to extended reals: only the monoid laws are used, so no finiteness is needed.
-/
import Mathlib.Algebra.BigOperators.Intervals
import Mathlib.Algebra.BigOperators.Fin

open scoped BigOperators

namespace Cert.QGemm

/-- Position `l` of stretch `s` (of four stretches of 1024) as a position among all 4096. -/
def pos (s : Fin 4) (l : Fin 1024) : Fin 4096 := ⟨s.val * 1024 + l.val, by have := s.isLt; have := l.isLt; omega⟩

theorem pos_val (s : Fin 4) (l : Fin 1024) : (pos s l).val = s.val * 1024 + l.val := rfl

/-- Over natural-number positions: the first `n + B` terms are the first `n` and then `B` more. -/
theorem sum_range_stretch {M : Type} [AddCommMonoid M] (g : ℕ → M) (n B : ℕ) :
    ∑ k ∈ Finset.range (n + B), g k = ∑ k ∈ Finset.range n, g k + ∑ l : Fin B, g (n + l.val) := by
  rw [Finset.sum_range_add]
  exact congrArg (_ + ·) (Finset.sum_range fun x => g (n + x))

/-- The sum over all 4096 positions is the four stretches' sums, added up from the left. -/
theorem sum_four_stretches {M : Type} [AddCommMonoid M] (f : Fin 4096 → M) :
    ∑ k : Fin 4096, f k
      = ((∑ l : Fin 1024, f (pos 0 l) + ∑ l : Fin 1024, f (pos 1 l)) + ∑ l : Fin 1024, f (pos 2 l))
          + ∑ l : Fin 1024, f (pos 3 l) := by
  -- read `f` at natural-number positions (zero past the end, which no term below reaches)
  let g : ℕ → M := fun n => if h : n < 4096 then f ⟨n, h⟩ else 0
  have hg : ∀ k : Fin 4096, g k.val = f k := fun k => dif_pos k.isLt
  have hs : ∀ (s : Fin 4) (l : Fin 1024), g (s.val * 1024 + l.val) = f (pos s l) := fun s l => hg (pos s l)
  have e0 : ∑ l : Fin 1024, g (0 + l.val) = ∑ l : Fin 1024, f (pos 0 l) :=
    Finset.sum_congr rfl fun l _ => by rw [← hs 0 l]; rfl
  have e1 : ∑ l : Fin 1024, g (0 + 1024 + l.val) = ∑ l : Fin 1024, f (pos 1 l) :=
    Finset.sum_congr rfl fun l _ => by rw [← hs 1 l]; rfl
  have e2 : ∑ l : Fin 1024, g (0 + 1024 + 1024 + l.val) = ∑ l : Fin 1024, f (pos 2 l) :=
    Finset.sum_congr rfl fun l _ => by rw [← hs 2 l]; rfl
  have e3 : ∑ l : Fin 1024, g (0 + 1024 + 1024 + 1024 + l.val) = ∑ l : Fin 1024, f (pos 3 l) :=
    Finset.sum_congr rfl fun l _ => by rw [← hs 3 l]; rfl
  calc ∑ k : Fin 4096, f k
      = ∑ k : Fin 4096, g k.val := (Finset.sum_congr rfl fun k _ => (hg k).symm)
    _ = ∑ k ∈ Finset.range (0 + 1024 + 1024 + 1024 + 1024), g k := Fin.sum_univ_eq_sum_range g 4096
    _ = _ := by
        rw [sum_range_stretch g (0 + 1024 + 1024 + 1024) 1024, sum_range_stretch g (0 + 1024 + 1024) 1024,
          sum_range_stretch g (0 + 1024) 1024, sum_range_stretch g 0 1024, Finset.sum_range_zero, zero_add,
          e0, e1, e2, e3]

end Cert.QGemm
-- ==== Proof.Bridge.lean ====
/-
  The two results are one function of the arguments.

  Write x0 for the activations [2, 4096, 4096], x1 for the residual, x2, x3, x4 for the packed weights, the scales
  and the packed zero points, x5 for the bias, and W for the dequantized weights [4096, 4096].

  The weights.  Both programs unpack and convert alike and form (weight - zero point) * scale; they differ only in
  how each group's row is repeated over the group's 128 positions — the kernel's program in two steps through a
  [32, 1, 4096] array, the reference in one — and in the kernel's final change of format, which is the identity
  here.  Repeating in two steps reads the same entry as repeating in one, so the two weight arrays are equal.

  The results.  At entry (b, s, n) the reference has (sum over k < 4096 of x0(b,s,k) * W(k,n) + x5(n)) + x1(b,s,n).
  The kernel's result array at row b * 4096 + s, column n has the same 4096 products summed in four stretches of
  1024 added from the left, then + x5(n), then + x1(b,s,n).  A sum over 4096 positions is the four stretches' sums
  added from the left (addition is associative), so the two entries are equal.  No finiteness is used anywhere.
-/
import proofs.«431422_j47407849013389_3_alg».proof.Proof.KernelIdealRun
import proofs.«431422_j47407849013389_3_alg».proof.Proof.BlockSum
import proofs.«431422_j47407849013389_3_alg».proof.Proof.Gen.ReferenceIdeal.Read

set_option maxRecDepth 16384

noncomputable section

namespace Cert.Proof.Bridge

open Cert.KernelIdeal Cert.KernelIdeal.Out Cert.QGemm Cert.QLinear
open Cert.KernelIdeal.Facts₀ Cert.KernelIdeal.Facts
open Idealize.ShloMosaic Idealize.ShloMosaic.TcCoe Idealize.SL.Sem Idealize.ShloMosaic.ValueIdx
open scoped BigOperators

/-! ## The weights -/

/-- Repeating a [32, 4096] array over 128 positions in two steps is repeating it in one. -/
theorem repeat_twice {α : Type} (y : S32x4096.Idx → α) (h3 : S32x4096.BroadcastsInDim S32x128x4096 (![0, 2] : Fin 2 → Fin S32x128x4096.rank)) :
    broadcastInDim S32x128x4096 ![0, 1, 2] bcast_S32x1x4096_S32x128x4096_0_1_2
        (broadcastInDim S32x1x4096 ![0, 2] bcast_S32x4096_S32x1x4096_0_2 y)
      = broadcastInDim S32x128x4096 ![0, 2] h3 y := by
  funext i
  rw [broadcastInDim_apply _ bcast_S32x1x4096_S32x128x4096_0_1_2 _ i (ix3 (i 0) 0 (i 2)) (fun x => match x with
      | ⟨0, _⟩ => by show (i 0).val = if (32 : Nat) = 1 then 0 else (i 0).val; rw [if_neg (by decide)]
      | ⟨1, _⟩ => by show 0 = if (1 : Nat) = 1 then 0 else (i 1).val; rw [if_pos rfl]
      | ⟨2, _⟩ => by show (i 2).val = if (4096 : Nat) = 1 then 0 else (i 2).val; rw [if_neg (by decide)]),
    broadcastInDim_apply _ bcast_S32x4096_S32x1x4096_0_2 y (ix3 (i 0) 0 (i 2)) (ix2 (i 0) (i 2)) (fun x => match x with
      | ⟨0, _⟩ => by show (i 0).val = if (32 : Nat) = 1 then 0 else (i 0).val; rw [if_neg (by decide)]
      | ⟨1, _⟩ => by show (i 2).val = if (4096 : Nat) = 1 then 0 else (i 2).val; rw [if_neg (by decide)]),
    broadcastInDim_apply _ h3 y i (ix2 (i 0) (i 2)) (fun x => match x with
      | ⟨0, _⟩ => by show (i 0).val = if (32 : Nat) = 1 then 0 else (i 0).val; rw [if_neg (by decide)]
      | ⟨1, _⟩ => by show (i 2).val = if (4096 : Nat) = 1 then 0 else (i 2).val; rw [if_neg (by decide)])]

/-- The kernel's dequantized weights are the reference's. -/
theorem weights_eq (x2 : (⟨S512x4096, .i32⟩ : BufTy).Contents (Elt Ideal)) (x3 : (⟨S32x4096, .f32⟩ : BufTy).Contents (Elt Ideal))
    (x4 : (⟨S32x512, .i32⟩ : BufTy).Contents (Elt Ideal)) :
    (kernelWeights (F := Ideal) x2 x3 x4 : S4096x4096.Idx → EReal) = Cert.ReferenceIdeal.Read.val_main_v29 (F := Ideal) x2 x3 x4 := by
  unfold kernelWeights spread
  rw [repeat_twice _ Cert.ReferenceIdeal.Facts₀.bcast_S32x4096_S32x128x4096_0_2,
    repeat_twice _ Cert.ReferenceIdeal.Facts₀.bcast_S32x4096_S32x128x4096_0_2]
  rfl

variable (m : (ℓ : Loc nD τ sig) → Buf (Elt Ideal) ℓ)

/-! ## The region's arrays read at an entry -/

/-- Row b * 4096 + s, position k of the activations is entry (b, s, k) of the first argument. -/
theorem act_at (c : Dev nD) (b : Fin 2) (s : Fin 4096) (k : Fin 4096) :
    at2 (actArr m c) (b.val * 4096 + s.val) k.val = m ((c : Thread nD τ).loc main_arg0) (ix3 b s k) := by
  rw [at2_of_lt _ _ _ (by have := b.isLt; have := s.isLt; omega) k.isLt, act_arr]
  exact shapeCast_apply _ shapeCasts_S2x4096x4096_S8192x4096 _ (ix3 b s k) (by
    rewrite [Shape.rowMajor_val_three, Shape.rowMajor_val_two]
    show (b.val * 4096 + s.val) * 4096 + k.val = (b.val * 4096 + s.val) * 4096 + k.val
    rfl)

/-- Row b * 4096 + s, column n of the residual is entry (b, s, n) of the second argument. -/
theorem res_at (c : Dev nD) (b : Fin 2) (s : Fin 4096) (n : Fin 4096) :
    at2 (resArr m c) (b.val * 4096 + s.val) n.val = m ((c : Thread nD τ).loc main_arg1) (ix3 b s n) := by
  rw [at2_of_lt _ _ _ (by have := b.isLt; have := s.isLt; omega) n.isLt, res_arr]
  exact shapeCast_apply _ shapeCasts_S2x4096x4096_S8192x4096 _ (ix3 b s n) (by
    rewrite [Shape.rowMajor_val_three, Shape.rowMajor_val_two]
    show (b.val * 4096 + s.val) * 4096 + n.val = (b.val * 4096 + s.val) * 4096 + n.val
    rfl)

/-- Column n of the bias row is entry n of the last argument. -/
theorem bias_at (c : Dev nD) (n : Fin 4096) :
    at2 (biasArr m c) 0 n.val = m ((c : Thread nD τ).loc main_arg5) (ix1 n) := by
  rw [at2_of_lt _ _ _ (by decide) n.isLt, bias_arr]
  exact shapeCast_apply _ shapeCasts_S4096_S1x4096 _ (ix1 n) (by
    rewrite [Shape.rowMajor_val_one, Shape.rowMajor_val_two]
    show n.val = 0 * 4096 + n.val
    omega)

/-- Position k, column n of the weights is that entry of the reference's dequantized weights. -/
theorem wgt_at (c : Dev nD) (k n : Fin 4096) :
    at2 (wgtArr m c) k.val n.val
      = Cert.ReferenceIdeal.Read.val_main_v29 (F := Ideal) (m ((c : Thread nD τ).loc main_arg2)) (m ((c : Thread nD τ).loc main_arg3))
          (m ((c : Thread nD τ).loc main_arg4)) (ix2 k n) := by
  rw [at2_of_lt _ _ _ k.isLt n.isLt, wgt_arr]
  exact congrFun (weights_eq _ _ _) (ix2 k n)

/-! ## The two results -/

/-- The kernel's result is the reference's, entry by entry (the six argument arrays named, so that their entries
    are plainly extended reals). -/
theorem out_eq_of (c : Dev nD)
    (x0 x1 : (⟨S2x4096x4096, .f32⟩ : BufTy).Contents (Elt Ideal)) (x2 : (⟨S512x4096, .i32⟩ : BufTy).Contents (Elt Ideal))
    (x3 : (⟨S32x4096, .f32⟩ : BufTy).Contents (Elt Ideal)) (x4 : (⟨S32x512, .i32⟩ : BufTy).Contents (Elt Ideal))
    (x5 : (⟨S4096, .f32⟩ : BufTy).Contents (Elt Ideal))
    (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4) (h5 : m ((c : Thread nD τ).loc main_arg5) = x5) :
    out m c = Cert.ReferenceIdeal.Read.val_main_v34 (F := Ideal) x0 x1 x2 x3 x4 x5 := by
  funext i
  obtain ⟨b, s, n, rfl⟩ : ∃ (b : Fin 2) (s n : Fin 4096), i = ix3 b s n := ⟨i 0, i 1, i 2, eq_ix3 i⟩
  -- the reference's entry
  rw [Cert.ReferenceIdeal.Read.val_main_v34_apply, Cert.ReferenceIdeal.Read.val_main_v33_apply, Cert.ReferenceIdeal.Read.val_main_v30_apply, Cert.ReferenceIdeal.Read.val_main_v32_apply,
    Cert.ReferenceIdeal.Read.val_main_v31_apply]
  -- the kernel's entry: the result array at row b * 4096 + s, column n
  have hrow : b.val * 4096 + s.val < 8192 := by have := b.isLt; have := s.isLt; omega
  have eo : out m c (ix3 b s n) = result m c (ix2 ⟨b.val * 4096 + s.val, hrow⟩ n) :=
    shapeCast_apply _ shapeCasts_S8192x4096_S2x4096x4096 (ix3 b s n) (ix2 ⟨b.val * 4096 + s.val, hrow⟩ n) (by
      rewrite [Shape.rowMajor_val_two, Shape.rowMajor_val_three]
      show (b.val * 4096 + s.val) * 4096 + n.val = (b.val * 4096 + s.val) * 4096 + n.val
      rfl)
  -- each stretch's sum is the reference's products at that stretch's positions
  have hs : ∀ j : Fin 4, stretchSum m c (b.val * 4096 + s.val) n.val j.val
      = ∑ l : Fin 1024, x0 (Cert.ReferenceIdeal.Read.lidx_main_v30 (ix3 b s n) (pos j l))
          * Cert.ReferenceIdeal.Read.val_main_v29 (F := Ideal) x2 x3 x4 (Cert.ReferenceIdeal.Read.ridx_main_v30 (ix3 b s n) (pos j l)) := by
    intro j
    unfold stretchSum
    refine Finset.sum_congr rfl fun l _ => ?_
    have ea := act_at m c b s (pos j l)
    have ew := wgt_at m c (pos j l) n
    rw [pos_val] at ea ew
    rw [h0] at ea
    rw [h2, h3, h4] at ew
    rw [ea, ew]
    have e1 : Cert.ReferenceIdeal.Read.lidx_main_v30 (ix3 b s n) (pos j l) = ix3 b s (pos j l) :=
      funext fun x => match x with | ⟨0, _⟩ => rfl | ⟨1, _⟩ => rfl | ⟨2, _⟩ => rfl
    have e2 : Cert.ReferenceIdeal.Read.ridx_main_v30 (ix3 b s n) (pos j l) = ix2 (pos j l) n :=
      funext fun x => match x with | ⟨0, _⟩ => rfl | ⟨1, _⟩ => rfl
    rw [e1, e2]
  have e5 : Cert.ReferenceIdeal.Read.idx_main_v31 (Cert.ReferenceIdeal.Read.idx_main_v32 (ix3 b s n)) = ix1 n :=
    funext fun x => match x with | ⟨0, _⟩ => rfl
  have eb := bias_at m c n
  have er := res_at m c b s n
  rw [h5] at eb
  rw [h1] at er
  rw [eo]
  unfold result
  show (upTo (stretchSum m c (b.val * 4096 + s.val) n.val) 3 + at2 (biasArr m c) 0 n.val)
      + at2 (resArr m c) (b.val * 4096 + s.val) n.val = _
  rw [eb, er, Ideal.addf_def, Ideal.addf_def, e5]
  refine congrArg (· + _) (congrArg (· + _) ?_)
  rw [sum_four_stretches]
  exact congrArg₂ (· + ·) (congrArg₂ (· + ·) (congrArg₂ (· + ·) (hs 0) (hs 1)) (hs 2)) (hs 3)

/-- The kernel's result is the reference's composed term of the same six arguments. -/
theorem out_eq (c : Dev nD) :
    out m c = Cert.ReferenceIdeal.Read.val_main_v34 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  out_eq_of m c _ _ _ _ _ _ rfl rfl rfl rfl rfl rfl

end Cert.Proof.Bridge

end
-- ==== Proof.lean ====
/-
  A 4-bit quantized linear layer with bias and residual: the blocked kernel equals the plain reference.

  Both programs dequantize the weights alike: W(k, n) = (q(k, n) - z(k / 128, n)) * sc(k / 128, n), where q and z
  are the 4-bit fields unpacked from the packed words and the zero points and scales are shared by groups of 128
  positions.  The reference then computes, for b < 2, s < 4096, n < 4096,
      out(b, s, n) = (sum over k < 4096 of x(b, s, k) * W(k, n) + bias(n)) + res(b, s, n).
  The kernel views x and res as 8192 x 4096 arrays and tiles the product in 1024 x 1024 blocks over a grid of
  8 row blocks x 4 column blocks x 4 stretches of the summed positions: for each (row block, column block) it
  starts a running total with the first stretch's product, adds the second, third and fourth, and with the fourth
  also adds the bias row and the residual block; the block is written out once, after the fourth stretch.

  The frames: every load and store of the body moves a whole block, the three branch tests depend only on the
  stretch number, and the output block is stored into at every point, so each program runs to the end, faults
  nowhere and leaves its arguments unchanged (`Cert.Kernel.Body.frame`, `Cert.KernelIdeal.Body.frame`: one
  argument, read at both instances; the reference is straight-line host code).
  The values: over the extended reals a change of float format is the identity, the matrix unit's product from a zero
  block is the plain sum of products, and a sum over 4096 positions is its four stretches' sums added from the left;
  repeating a group's row in two steps is repeating it in one.  So the kernel's result array, re-laid as
  [2, 4096, 4096], is entry by entry the reference's result (`Cert.Proof.Bridge.out_eq`).  Only associativity of
  addition is used: the precondition (finite inputs) is never opened.
  The idealization rewrote nothing, so `preserves` is trivial.
-/
import proofs.«431422_j47407849013389_3_alg».proof.Defs
import proofs.«431422_j47407849013389_3_alg».proof.Proof.Gen.Kernel
import proofs.«431422_j47407849013389_3_alg».proof.Proof.Gen.KernelIdeal
import proofs.«431422_j47407849013389_3_alg».proof.Proof.Gen.ReferenceIdeal
import proofs.«431422_j47407849013389_3_alg».proof.Proof.Gen.Pre_finite_inputs
import proofs.«431422_j47407849013389_3_alg».proof.Proof.Gen.ReferenceIdeal.Run
import proofs.«431422_j47407849013389_3_alg».proof.Proof.Gen.ReferenceIdeal.Read
import proofs.«431422_j47407849013389_3_alg».proof.Proof.KernelFrame
import proofs.«431422_j47407849013389_3_alg».proof.Proof.KernelIdealFrame
import proofs.«431422_j47407849013389_3_alg».proof.Proof.Bridge
import Idealize.ShloMosaic.Adequacy
import Idealize.ShloMosaic.Init

noncomputable section

namespace Cert.Proof

open Idealize.ShloMosaic Idealize.SL.Sem

/-- The kernel's program as printed runs, faults nowhere and leaves its arguments unchanged. -/
theorem frame_kernel : Cert.frame_Kernel := fun m ρ _ => Cert.Kernel.Body.frame m ρ

/-- So does its idealization. -/
theorem frame_kernel_ideal : Cert.frame_KernelIdeal := fun m ρ _ => Cert.KernelIdeal.Body.frame m ρ

/-- The reference is host code only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments the two idealized programs end with equal results: the kernel's
    result array re-laid is the reference's composed term of the same arguments, entry by entry. -/
theorem algebraic : Cert.algebraic_KernelIdeal_ReferenceIdeal := by
  intro m ρ m' ρ' _ hagree
  refine ⟨fun c => Cert.KernelIdeal.Out.out m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2]
  exact (Cert.Proof.Bridge.out_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
